-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S64x128 : Shape := ⟨2, ![64, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x128 .f32) (main_arg1 : IVec S262144 32) (main_arg2 : FVec F S64x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 32 := constantI S_ 32 64#32
  let main_v11 : IVec S262144 32 := broadcastInDim S262144 ![] bcast_S_S262144 main_c_3
  let main_v12 : IVec S262144 1 := cmpi .slt main_arg1 main_v11
  let main_v13 : IVec S262144 1 := andi main_v10 main_v12
  let main_c_4 : IVec S_ 1 := constantI S_ 1 1#1
  let main_v14 : IVec S_ 1 := (fun x v => Host.reduce IntOp.andi x v reducesTo_S262144_S_d0 h_S_) main_v13 main_c_4
  let main_v15 : IVec S_ 1 := andi main_v8 main_v14
  main_v15
-- ==== Kernel.lean ====
abbrev S262144x128 : Shape := ⟨2, ![262144, 128]⟩
abbrev S262144 : Shape := ⟨1, ![262144]⟩
abbrev S64x128 : Shape := ⟨2, ![64, 128]⟩
abbrev S1x262144 : Shape := ⟨2, ![1, 262144]⟩
abbrev S_ : Shape := ⟨0, ![]⟩
abbrev S64 : Shape := ⟨1, ![64]⟩
abbrev S1x64 : Shape := ⟨2, ![1, 64]⟩
abbrev S262144x64 : Shape := ⟨2, ![262144, 64]⟩
abbrev S2x64x128 : Shape := ⟨3, ![2, 64, 128]⟩
abbrev S2x1x1 : Shape := ⟨3, ![2, 1, 1]⟩
abbrev S2x64x1 : Shape := ⟨3, ![2, 64, 1]⟩
abbrev S8192x128 : Shape := ⟨2, ![8192, 128]⟩
abbrev S1x8192 : Shape := ⟨2, ![1, 8192]⟩
abbrev S8192x64 : Shape := ⟨2, ![8192, 64]⟩
abbrev S1x64x128 : Shape := ⟨3, ![1, 64, 128]⟩
abbrev S1x1x1 : Shape := ⟨3, ![1, 1, 1]⟩
abbrev S1x64x1 : Shape := ⟨3, ![1, 64, 1]⟩
abbrev S1x1 : Shape := ⟨2, ![1, 1]⟩
abbrev S64x1 : Shape := ⟨2, ![64, 1]⟩
abbrev S8192 : Shape := ⟨1, ![8192]⟩
abbrev S8192x1 : Shape := ⟨2, ![8192, 1]⟩
abbrev S64x8192 : Shape := ⟨2, ![64, 8192]⟩
abbrev S1x8192x128 : Shape := ⟨3, ![1, 8192, 128]⟩
abbrev S1 : Shape := ⟨1, ![1]⟩

abbrev nBuf : Space → Nat
  | .hbm => 27
  | .vmem => 14
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S64x128, .f32⟩
  | .hbm, ⟨3, _⟩ => ⟨S1x262144, .i32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S1x64, .f32⟩
  | .hbm, ⟨8, _⟩ => ⟨S262144x64, .f32⟩
  | .hbm, ⟨9, _⟩ => ⟨S2x64x128, .f32⟩
  | .hbm, ⟨10, _⟩ => ⟨S2x1x1, .f32⟩
  | .hbm, ⟨11, _⟩ => ⟨S2x64x1, .f32⟩
  | .hbm, ⟨12, _⟩ => ⟨S_, .f32⟩
  | .hbm, ⟨13, _⟩ => ⟨S64x128, .f32⟩
  | .hbm, ⟨14, _⟩ => ⟨S_, .f32⟩
  | .hbm, ⟨15, _⟩ => ⟨S64x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S1x8192, .i32⟩
  | .local _ .vmem, ⟨3, _⟩ => ⟨S1x8192, .i32⟩
  | .local _ .vmem, ⟨4, _⟩ => ⟨S64x128, .f32⟩
  | .local _ .vmem, ⟨5, _⟩ => ⟨S1x64, .f32⟩
  | .local _ .vmem, ⟨6, _⟩ => ⟨S8192x64, .f32⟩
  | .local _ .vmem, ⟨7, _⟩ => ⟨S8192x64, .f32⟩
  | .local _ .vmem, ⟨8, _⟩ => ⟨S1x64x128, .f32⟩
  | .local _ .vmem, ⟨9, _⟩ => ⟨S1x64x128, .f32⟩
  | .local _ .vmem, ⟨10, _⟩ => ⟨S1x1x1, .f32⟩
  | .local _ .vmem, ⟨11, _⟩ => ⟨S1x1x1, .f32⟩
  | .local _ .vmem, ⟨12, _⟩ => ⟨S1x64x1, .f32⟩
  | .local _ .vmem, ⟨13, _⟩ => ⟨S1x64x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S262144_S1x262144 : S262144.ShapeCasts S1x262144
  reducesTo_S64x128_S64_d1 : S64x128.ReducesTo [1] S64
  h_S_ : 0 < S_.numel
  shapeCasts_S64_S1x64 : S64.ShapeCasts S1x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S8192x128_S8192x128_0_0 : ∀ a, (![0, 0] : Fin 2 → Nat) a + S8192x128.size a ≤ S8192x128.size a
  h_S8192x128 : 0 < S8192x128.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S8192x128_S8192 : S8192x128.Reduces [1] S8192
  shapeCasts_S8192_S8192x1 : S8192.ShapeCasts S8192x1
  broadcasts_S8192x1_S8192x64 : S8192x1.Broadcasts S8192x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  iota_S64x8192_d0_w32 : S64x8192.Iotas .tc 32 [0]
  broadcasts_S1x8192_S64x8192 : S1x8192.Broadcasts S64x8192
  natLt_1_32 : 1 < 32
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  bitsLt_bf16_f32 : FTy.bits .bf16 < FTy.bits .f32
  reduces_S64x8192_S64 : S64x8192.Reduces [1] S64
  shapeCasts_S64_S64x1 : S64.ShapeCasts S64x1
  reducesTo_S2x64x128_S64x128_d0 : S2x64x128.ReducesTo [0] S64x128
  reducesTo_S2x64x1_S64x1_d0 : S2x64x1.ReducesTo [0] S64x1
  reducesTo_S2x1x1_S1x1_d0 : S2x1x1.ReducesTo [0] S1x1
  bcast_S_S64x1 : S_.BroadcastsInDim S64x1 (![] : Fin 0 → Fin S64x1.rank)
  bcast_S64x1_S64x128_0_1 : S64x1.BroadcastsInDim S64x128 (![0, 1] : Fin 2 → Fin S64x128.rank)
  shapeCasts_S1x1_S_ : S1x1.ShapeCasts S_
  dot_S8192x128_S64x128_S8192x64_1_1_0_0_n_n_wf : DotDims.WF S8192x128 S64x128 S8192x64 [1] [1] [0] [0] [] []
  dot_S64x8192_S64x128_S8192x128_0_0_1_1_n_n_wf : DotDims.WF S64x8192 S64x128 S8192x128 [0] [0] [1] [1] [] []
  dot_S64x8192_S8192x128_S64x128_1_0_0_1_n_n_wf : DotDims.WF S64x8192 S8192x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x262144.size a
  hwx0_1 : ∀ i : grid0.Coords, EltTy.bits .i32 = 32 ∨ (Rect.block (s := S1x262144) S1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S262144x64.size a
  hwx0_4 : ∀ i : grid0.Coords, EltTy.bits .f32 = 32 ∨ (Rect.block (s := S262144x64) S8192x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128.size a ≤ S2x64x128.size a
  hwx0_5 : ∀ i : grid0.Coords, EltTy.bits .f32 = 32 ∨ (Rect.block (s := S2x64x128) S1x64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x1.size a ≤ S2x64x1.size a
  hwx0_7 : ∀ i : grid0.Coords, EltTy.bits .f32 = 32 ∨ (Rect.block (s := S2x64x1) S1x64x1.size (cc0_transform_7 i) (hinb0_7 i)).WholeWords (EltTy.packing .f32)

variable [Facts₀]

def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf
def dot_S64x8192_S64x128_S8192x128_0_0_1_1_n_n : DotDims S64x8192 S64x128 S8192x128 where
  lhsContracting := [0]
  rhsContracting := [0]
  lhsNonContracting := [1]
  rhsNonContracting := [1]
  lhsBatch := []
  rhsBatch := []
  wf := dot_S64x8192_S64x128_S8192x128_0_0_1_1_n_n_wf
def dot_S64x8192_S8192x128_S64x128_1_0_0_1_n_n : DotDims S64x8192 S8192x128 S64x128 where
  lhsContracting := [1]
  rhsContracting := [0]
  lhsNonContracting := [0]
  rhsNonContracting := [1]
  lhsBatch := []
  rhsBatch := []
  wf := dot_S64x8192_S8192x128_S64x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S8192x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x64x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S1x64x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S64x128 : Shape := ⟨2, ![64, 128]⟩
abbrev S_ : Shape := ⟨0, ![]⟩
abbrev S262144x1 : Shape := ⟨2, ![262144, 1]⟩
abbrev S64 : Shape := ⟨1, ![64]⟩
abbrev S1x64 : Shape := ⟨2, ![1, 64]⟩
abbrev S262144x64 : Shape := ⟨2, ![262144, 64]⟩
abbrev S128x64 : Shape := ⟨2, ![128, 64]⟩
abbrev S64x1 : Shape := ⟨2, ![64, 1]⟩

abbrev nBuf : Space → Nat
  | .hbm => 65
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S64x128, .f32⟩
  | .hbm, ⟨3, _⟩ => ⟨S262144x128, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S64x128, .f32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S262144x64, .f32⟩
  | .hbm, ⟨12, _⟩ => ⟨S262144x64, .f32⟩
  | .hbm, ⟨13, _⟩ => ⟨S262144x64, .f32⟩
  | .hbm, ⟨14, _⟩ => ⟨S128x64, .f32⟩
  | .hbm, ⟨15, _⟩ => ⟨S262144x64, .f32⟩
  | .hbm, ⟨16, _⟩ => ⟨S_, .f32⟩
  | .hbm, ⟨17, _⟩ => ⟨S262144x64, .f32⟩
  | .hbm, ⟨18, _⟩ => ⟨S262144x64, .f32⟩
  | .hbm, ⟨19, _⟩ => ⟨S262144x64, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S262144x128, .f32⟩
  | .hbm, ⟨36, _⟩ => ⟨S_, .f32⟩
  | .hbm, ⟨37, _⟩ => ⟨S64x128, .f32⟩
  | .hbm, ⟨38, _⟩ => ⟨S262144x1, .i32⟩
  | .hbm, ⟨39, _⟩ => ⟨S64x128, .f32⟩
  | .hbm, ⟨40, _⟩ => ⟨S_, .i32⟩
  | .hbm, ⟨41, _⟩ => ⟨S64, .i32⟩
  | .hbm, ⟨42, _⟩ => ⟨S_, .i32⟩
  | .hbm, ⟨43, _⟩ => ⟨S_, .i32⟩
  | .hbm, ⟨44, _⟩ => ⟨S262144, .i32⟩
  | .hbm, ⟨45, _⟩ => ⟨S262144, .i32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S_, .i32⟩
  | .hbm, ⟨55, _⟩ => ⟨S262144, .i32⟩
  | .hbm, ⟨56, _⟩ => ⟨S64, .i32⟩
  | .hbm, ⟨57, _⟩ => ⟨S_, .i32⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .f32⟩
  | .hbm, ⟨62, _⟩ => ⟨S64x1, .f32⟩
  | .hbm, ⟨63, _⟩ => ⟨S64x128, .f32⟩
  | .hbm, ⟨64, _⟩ => ⟨S64x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_c_7 : Ref sig .tc := ⟨.hbm, 42, rfl⟩
abbrev main_call0_v0 : Ref sig .tc := ⟨.hbm, 43, rfl⟩
abbrev main_call0_v1 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_10 : Ref sig .tc := ⟨.hbm, 54, rfl⟩
abbrev main_v37 : Ref sig .tc := ⟨.hbm, 55, rfl⟩
abbrev main_v38 : Ref sig .tc := ⟨.hbm, 56, rfl⟩
abbrev main_c_11 : Ref sig .tc := ⟨.hbm, 57, rfl⟩
abbrev main_call1_v0 : Ref sig .tc := ⟨.hbm, 58, rfl⟩
abbrev main_call1_v1 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S64x128_S64_d1 : S64x128.ReducesTo [1] S64
  bcast_S64_S1x64_1 : S64.BroadcastsInDim S1x64 (![1] : Fin 1 → Fin S1x64.rank)
  bcast_S262144x1_S262144x64_0_1 : S262144x1.BroadcastsInDim S262144x64 (![0, 1] : Fin 2 → Fin S262144x64.rank)
  bcast_S1x64_S262144x64_0_1 : S1x64.BroadcastsInDim S262144x64 (![0, 1] : Fin 2 → Fin S262144x64.rank)
  transposes_S64x128_S128x64_1_0 : S64x128.Transposes [1, 0] S128x64
  bcast_S_S262144x64 : S_.BroadcastsInDim S262144x64 (![] : Fin 0 → Fin S262144x64.rank)
  bcast_S_S262144 : S_.BroadcastsInDim S262144 (![] : Fin 0 → Fin S262144.rank)
  reducesTo_S262144x128_S_d0_1 : S262144x128.ReducesTo [0, 1] S_
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S262144x128_S128x64_S262144x64_1_0_0_1_n_n_wf : DotDims.WF S262144x128 S128x64 S262144x64 [1] [0] [0] [1] [] []
  gather_S64x128_S262144x1_S262144x128_1_0_n_n_0_1_1128_wf : GatherDims.WF S64x128 S262144x1 S262144x128 [1] [0] [] [0] [] 1 ![1, 128]
  scatter_S64x128_S262144x1_S262144x128_1_0_0_1_wf : ScatterDims.WF S64x128 S262144x1 S262144x128 [1] [0] [0] 1
  scatter_S64_S262144x1_S262144_n_0_0_1_wf : ScatterDims.WF S64 S262144x1 S262144 [] [0] [0] 1

variable [Facts₀]

def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def gather_S64x128_S262144x1_S262144x128_1_0_n_n_0_1_1128 : GatherDims S64x128 S262144x1 S262144x128 where
  offsetDims := [1]
  collapsedSliceDims := [0]
  operandBatchingDims := []
  startIndicesBatchingDims := []
  startIndexMap := [0]
  indexVectorDim := 1
  sliceSizes := ![1, 128]
  wf := gather_S64x128_S262144x1_S262144x128_1_0_n_n_0_1_1128_wf
def scatter_S64x128_S262144x1_S262144x128_1_0_0_1 : ScatterDims S64x128 S262144x1 S262144x128 where
  updateWindowDims := [1]
  insertedWindowDims := [0]
  scatterDimsToOperandDims := [0]
  indexVectorDim := 1
  wf := scatter_S64x128_S262144x1_S262144x128_1_0_0_1_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf

class Facts : Prop extends Facts₀ where

variable [Facts]
-- ==== Proof.KPieces.lean ====
/-
  What one run of the kernel body leaves in each output's staging buffer, as a value. The body stores each output
  whole, so what the buffer holds afterwards is the stored payload, a pure function of the point's input blocks. At the
  first step of a core the three running totals are first reset to zero and then updated, and the update reads the
  reset back: the totals end at the update of zero. At every later step the update reads what the step before left.
  The distance block depends on the inputs alone in both cases.
-/
import proofs.«418898_j80367428042770_2_alg».proof.Proof.Gen.KernelIdeal.Frame
import Idealize.ShloMosaic.Lib.Pipeline.Value
import Idealize.ShloMosaic.Lib.Tactic

set_option maxRecDepth 16384

noncomputable section

namespace Cert.KernelIdeal.KPieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first step of a core: reset, then update -/

/-- The distance block. -/
theorem out_A_4 (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S1x64x128 .f32) (harg7 : arg7.IsWhole) (arg8 : Memref sig .tc .vmem S1x1x1 .f32) (harg8 : arg8.IsWhole) (arg9 : Memref sig .tc .vmem S1x64x1 .f32) (harg9 : arg9.IsWhole) (hc0 : cond0_0 i)
    (x0 : Vec F S8192x128 .f32) (x1 : Vec F S1x8192 .i32) (x2 : Vec F S64x128 .f32) (x3 : Vec F S1x64 .f32) :
    out0_A_4 c i arg2 harg2 arg3 harg3 arg4 harg4 arg5 harg5 arg6 harg6 arg7 harg7 arg8 harg8 arg9 harg9 hc0 x0 x1 x2 x3 = k0_pay7 x0 x2 x3 := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S8192x128) hz2, View.ld_unit_zero (S := S1x8192) hz2, View.ld_unit_zero (S := S64x128) hz2, View.ld_unit_zero (S := S1x64) hz2, View.ld_unit_zero (S := S1x64x128) hz3, View.ld_unit_zero (S := S1x1x1) hz3, View.ld_unit_zero (S := S1x64x1) hz3, View.readCov_unit_zero (S := S1x64x128) _ hz3, View.readCov_unit_zero (S := S1x1x1) _ hz3, View.readCov_unit_zero (S := S1x64x1) _ hz3]

/-- The per-class sums: the update of the zero block. -/
theorem out_A_5 (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S1x64x128 .f32) (harg7 : arg7.IsWhole) (arg8 : Memref sig .tc .vmem S1x1x1 .f32) (harg8 : arg8.IsWhole) (arg9 : Memref sig .tc .vmem S1x64x1 .f32) (harg9 : arg9.IsWhole) (hc0 : cond0_0 i)
    (x0 : Vec F S8192x128 .f32) (x1 : Vec F S1x8192 .i32) (x2 : Vec F S64x128 .f32) (x3 : Vec F S1x64 .f32) :
    out0_A_5 c i arg2 harg2 arg3 harg3 arg4 harg4 arg5 harg5 arg6 harg6 arg7 harg7 arg8 harg8 arg9 harg9 hc0 x0 x1 x2 x3 = k0_pay2 (k0_pay8 x1) (k0_pay9 x0 x1 x2) (k0_pay4 (F := F)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x64x128) hz3, View.readCov_unit_zero (S := S1x64x128) _ hz3]
  simp only [View.readAt_eq_ld, harg2.read_unread, harg3.read_unread, harg4.read_unread, harg5.read_unread, harg7.read_unread, harg8.read_unread, harg9.read_unread, View.ld_unit_zero (S := S8192x128) hz2, View.ld_unit_zero (S := S1x8192) hz2, View.ld_unit_zero (S := S64x128) hz2, View.ld_unit_zero (S := S1x64) hz2, View.ld_unit_zero (S := S1x64x128) hz3, View.ld_unit_zero (S := S1x1x1) hz3, View.ld_unit_zero (S := S1x64x1) hz3, View.readCov_unit_zero (S := S1x64x128) _ hz3, View.readCov_unit_zero (S := S1x1x1) _ hz3, View.readCov_unit_zero (S := S1x64x1) _ hz3]

/-- The loss cell: the update of zero. -/
theorem out_A_6 (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S1x64x128 .f32) (harg7 : arg7.IsWhole) (arg8 : Memref sig .tc .vmem S1x1x1 .f32) (harg8 : arg8.IsWhole) (arg9 : Memref sig .tc .vmem S1x64x1 .f32) (harg9 : arg9.IsWhole) (hc0 : cond0_0 i)
    (x0 : Vec F S8192x128 .f32) (x1 : Vec F S1x8192 .i32) (x2 : Vec F S64x128 .f32) (x3 : Vec F S1x64 .f32) :
    out0_A_6 c i arg2 harg2 arg3 harg3 arg4 harg4 arg5 harg5 arg6 harg6 arg7 harg7 arg8 harg8 arg9 harg9 hc0 x0 x1 x2 x3 = k0_pay1 (k0_pay10 x0 x1 x2 (k0_pay5 (F := F))) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg7.read_unread, harg8.read_unread, harg9.read_unread, View.ld_unit_zero (S := S8192x128) hz2, View.ld_unit_zero (S := S1x8192) hz2, View.ld_unit_zero (S := S64x128) hz2, View.ld_unit_zero (S := S1x64) hz2, View.ld_unit_zero (S := S1x64x128) hz3, View.ld_unit_zero (S := S1x1x1) hz3, View.ld_unit_zero (S := S1x64x1) hz3, View.readCov_unit_zero (S := S1x64x128) _ hz3, View.readCov_unit_zero (S := S1x1x1) _ hz3, View.readCov_unit_zero (S := S1x64x1) _ hz3]

/-- The per-class counts: the update of the zero column. -/
theorem out_A_7 (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S1x64x128 .f32) (harg7 : arg7.IsWhole) (arg8 : Memref sig .tc .vmem S1x1x1 .f32) (harg8 : arg8.IsWhole) (arg9 : Memref sig .tc .vmem S1x64x1 .f32) (harg9 : arg9.IsWhole) (hc0 : cond0_0 i)
    (x0 : Vec F S8192x128 .f32) (x1 : Vec F S1x8192 .i32) (x2 : Vec F S64x128 .f32) (x3 : Vec F S1x64 .f32) :
    out0_A_7 c i arg2 harg2 arg3 harg3 arg4 harg4 arg5 harg5 arg6 harg6 arg7 harg7 arg8 harg8 arg9 harg9 hc0 x0 x1 x2 x3 = k0_pay3 (k0_pay8 x1) (k0_pay6 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread, harg7.read_unread, harg8.read_unread, harg9.read_unread, View.ld_unit_zero (S := S8192x128) hz2, View.ld_unit_zero (S := S1x8192) hz2, View.ld_unit_zero (S := S64x128) hz2, View.ld_unit_zero (S := S1x64) hz2, View.ld_unit_zero (S := S1x64x128) hz3, View.ld_unit_zero (S := S1x1x1) hz3, View.ld_unit_zero (S := S1x64x1) hz3, View.readCov_unit_zero (S := S1x64x128) _ hz3, View.readCov_unit_zero (S := S1x1x1) _ hz3, View.readCov_unit_zero (S := S1x64x1) _ hz3]

/-! ## Every later step: update what the step before left -/

/-- The distance block. -/
theorem out_B_4 (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S1x64x128 .f32) (harg7 : arg7.IsWhole) (arg8 : Memref sig .tc .vmem S1x1x1 .f32) (harg8 : arg8.IsWhole) (arg9 : Memref sig .tc .vmem S1x64x1 .f32) (harg9 : arg9.IsWhole) (hc0 : ¬cond0_0 i)
    (x0 : Vec F S8192x128 .f32) (x1 : Vec F S1x8192 .i32) (x2 : Vec F S64x128 .f32) (x3 : Vec F S1x64 .f32) (xo5 : Vec F S1x64x128 .f32) (xo6 : Vec F S1x1x1 .f32) (xo7 : Vec F S1x64x1 .f32) :
    out0_B_4 c i arg2 harg2 arg3 harg3 arg4 harg4 arg5 harg5 arg6 harg6 arg7 harg7 arg8 harg8 arg9 harg9 hc0 x0 x1 x2 x3 xo5 xo6 xo7 = k0_pay7 x0 x2 x3 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xo5 xo6 xo7)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S8192x128) hz2, View.ld_unit_zero (S := S1x8192) hz2, View.ld_unit_zero (S := S64x128) hz2, View.ld_unit_zero (S := S1x64) hz2, View.ld_unit_zero (S := S1x64x128) hz3, View.ld_unit_zero (S := S1x1x1) hz3, View.ld_unit_zero (S := S1x64x1) hz3, View.readCov_unit_zero (S := S1x64x128) _ hz3, View.readCov_unit_zero (S := S1x1x1) _ hz3, View.readCov_unit_zero (S := S1x64x1) _ hz3]

/-- The per-class sums. -/
theorem out_B_5 (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S1x64x128 .f32) (harg7 : arg7.IsWhole) (arg8 : Memref sig .tc .vmem S1x1x1 .f32) (harg8 : arg8.IsWhole) (arg9 : Memref sig .tc .vmem S1x64x1 .f32) (harg9 : arg9.IsWhole) (hc0 : ¬cond0_0 i)
    (x0 : Vec F S8192x128 .f32) (x1 : Vec F S1x8192 .i32) (x2 : Vec F S64x128 .f32) (x3 : Vec F S1x64 .f32) (xo5 : Vec F S1x64x128 .f32) (xo6 : Vec F S1x1x1 .f32) (xo7 : Vec F S1x64x1 .f32) :
    out0_B_5 c i arg2 harg2 arg3 harg3 arg4 harg4 arg5 harg5 arg6 harg6 arg7 harg7 arg8 harg8 arg9 harg9 hc0 x0 x1 x2 x3 xo5 xo6 xo7 = k0_pay2 (k0_pay8 x1) (k0_pay9 x0 x1 x2) xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xo5 xo6 xo7)]
  unfold kernelRun0_B
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8192x128) hz2, View.ld_unit_zero (S := S1x8192) hz2, View.ld_unit_zero (S := S64x128) hz2, View.ld_unit_zero (S := S1x64) hz2, View.ld_unit_zero (S := S1x64x128) hz3, View.ld_unit_zero (S := S1x1x1) hz3, View.ld_unit_zero (S := S1x64x1) hz3, View.readCov_unit_zero (S := S1x64x128) _ hz3, View.readCov_unit_zero (S := S1x1x1) _ hz3, View.readCov_unit_zero (S := S1x64x1) _ hz3]

/-- The loss cell. -/
theorem out_B_6 (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S1x64x128 .f32) (harg7 : arg7.IsWhole) (arg8 : Memref sig .tc .vmem S1x1x1 .f32) (harg8 : arg8.IsWhole) (arg9 : Memref sig .tc .vmem S1x64x1 .f32) (harg9 : arg9.IsWhole) (hc0 : ¬cond0_0 i)
    (x0 : Vec F S8192x128 .f32) (x1 : Vec F S1x8192 .i32) (x2 : Vec F S64x128 .f32) (x3 : Vec F S1x64 .f32) (xo5 : Vec F S1x64x128 .f32) (xo6 : Vec F S1x1x1 .f32) (xo7 : Vec F S1x64x1 .f32) :
    out0_B_6 c i arg2 harg2 arg3 harg3 arg4 harg4 arg5 harg5 arg6 harg6 arg7 harg7 arg8 harg8 arg9 harg9 hc0 x0 x1 x2 x3 xo5 xo6 xo7 = k0_pay1 (k0_pay10 x0 x1 x2 xo6) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 xo5 xo6 xo7)]
  unfold kernelRun0_B
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8192x128) hz2, View.ld_unit_zero (S := S1x8192) hz2, View.ld_unit_zero (S := S64x128) hz2, View.ld_unit_zero (S := S1x64) hz2, View.ld_unit_zero (S := S1x64x128) hz3, View.ld_unit_zero (S := S1x1x1) hz3, View.ld_unit_zero (S := S1x64x1) hz3, View.readCov_unit_zero (S := S1x64x128) _ hz3, View.readCov_unit_zero (S := S1x1x1) _ hz3, View.readCov_unit_zero (S := S1x64x1) _ hz3]

/-- The per-class counts. -/
theorem out_B_7 (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S1x64x128 .f32) (harg7 : arg7.IsWhole) (arg8 : Memref sig .tc .vmem S1x1x1 .f32) (harg8 : arg8.IsWhole) (arg9 : Memref sig .tc .vmem S1x64x1 .f32) (harg9 : arg9.IsWhole) (hc0 : ¬cond0_0 i)
    (x0 : Vec F S8192x128 .f32) (x1 : Vec F S1x8192 .i32) (x2 : Vec F S64x128 .f32) (x3 : Vec F S1x64 .f32) (xo5 : Vec F S1x64x128 .f32) (xo6 : Vec F S1x1x1 .f32) (xo7 : Vec F S1x64x1 .f32) :
    out0_B_7 c i arg2 harg2 arg3 harg3 arg4 harg4 arg5 harg5 arg6 harg6 arg7 harg7 arg8 harg8 arg9 harg9 hc0 x0 x1 x2 x3 xo5 xo6 xo7 = k0_pay3 (k0_pay8 x1) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 xo5 xo6 xo7)]
  unfold kernelRun0_B
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8192x128) hz2, View.ld_unit_zero (S := S1x8192) hz2, View.ld_unit_zero (S := S64x128) hz2, View.ld_unit_zero (S := S1x64) hz2, View.ld_unit_zero (S := S1x64x128) hz3, View.ld_unit_zero (S := S1x1x1) hz3, View.ld_unit_zero (S := S1x64x1) hz3, View.readCov_unit_zero (S := S1x64x128) _ hz3, View.readCov_unit_zero (S := S1x1x1) _ hz3, View.readCov_unit_zero (S := S1x64x1) _ hz3]

end Cert.KernelIdeal.KPieces

end
-- ==== Proof.Spec.lean ====
/-
  CENTER LOSS: what both programs compute, as functions of the three argument arrays over the extended reals.
  The inputs are N = 262144 feature rows of D = 128 numbers, one class label per row, and C = 64 class centres of D
  numbers. Row r belongs to the class its label names (read signed, clamped into the table: inside the label range
  this is the label itself). Three results:
    * the squared distance of every row to every centre, expanded as |f_r|² + |c_j|² − 2·⟨f_r, c_j⟩;
    * the mean over all N·D entries of the squared difference between a row's own centre and the row;
    * for every class, the sum over its rows of (centre − row), divided by the number of its rows (at least 1).
  Sums over a finite index set do not depend on order or grouping on the extended reals, so the kernel's tiling of the
  rows into 2 × 16 blocks of 8192 and the reference's whole-array operations are the same sums.
-/
import Idealize.ShloMosaic.Lib.ValueIdx
import Idealize.ShloMosaic.PureOps.Ideal.Laws

open scoped BigOperators

noncomputable section

namespace Cert.CenterLoss

open Idealize.ShloMosaic Idealize.ShloMosaic.ValueIdx

/-- The feature rows, the class centres and the labels. -/
abbrev FeatArr : Type := (⟨2, ![262144, 128]⟩ : Shape).Idx → EReal
abbrev CtrArr : Type := (⟨2, ![64, 128]⟩ : Shape).Idx → EReal
abbrev LblArr : Type := IVec ⟨1, ![262144]⟩ 32

/-- Every label, read signed, names one of the 64 classes. -/
def InRange (lbl : LblArr) : Prop := ∀ r : Fin 262144, 0 ≤ (lbl (ix1 r)).toInt ∧ (lbl (ix1 r)).toInt < 64

/-- Every entry is a real number (neither infinity). -/
def Finite {s : Shape} (x : s.Idx → EReal) : Prop := ∀ i, ∃ y : ℝ, x i = (y : EReal)

/-- The class of row `r`: its label read signed and clamped into [0, 63]. -/
def cls (lbl : LblArr) (r : Fin 262144) : Fin 64 := ⟨min (lbl (ix1 r)).toInt.toNat 63, by omega⟩

/-- Inside the label range the class is the label. -/
theorem cls_val (lbl : LblArr) (h : InRange lbl) (r : Fin 262144) : ((cls lbl r).val : Int) = (lbl (ix1 r)).toInt := by
  obtain ⟨h0, h1⟩ := h r
  show ((min (lbl (ix1 r)).toInt.toNat 63 : Nat) : Int) = _
  omega

/-- The two literals both programs carry: 2 and N·D = 2²⁵. They are never evaluated. -/
def two : EReal := Ideal.ofBits .f32 0x40000000#32
def nd : EReal := Ideal.ofBits .f32 0x4C000000#32

/-- |f_r|², |c_j|² and ⟨f_r, c_j⟩. -/
def sqRow (f : FeatArr) (r : Fin 262144) : EReal := ∑ k : Fin 128, f (ix2 r k) * f (ix2 r k)
def sqCtr (ctr : CtrArr) (j : Fin 64) : EReal := ∑ k : Fin 128, ctr (ix2 j k) * ctr (ix2 j k)
def dotRow (f : FeatArr) (ctr : CtrArr) (r : Fin 262144) (j : Fin 64) : EReal := ∑ k : Fin 128, f (ix2 r k) * ctr (ix2 j k)

/-- The squared distance of row `r` to centre `j`, expanded. -/
def distE (f : FeatArr) (ctr : CtrArr) (r : Fin 262144) (j : Fin 64) : EReal :=
  (sqRow f r + sqCtr ctr j) - two * dotRow f ctr r j

/-- Row `r`'s own centre minus the row, at feature `d`. -/
def diffE (f : FeatArr) (lbl : LblArr) (ctr : CtrArr) (r : Fin 262144) (d : Fin 128) : EReal :=
  ctr (ix2 (cls lbl r) d) - f (ix2 r d)

/-- The sum of the squared differences over every row and feature, and its mean. -/
def lossSum (f : FeatArr) (lbl : LblArr) (ctr : CtrArr) : EReal :=
  ∑ r : Fin 262144, ∑ d : Fin 128, diffE f lbl ctr r d * diffE f lbl ctr r d
def lossE (f : FeatArr) (lbl : LblArr) (ctr : CtrArr) : EReal := Ideal.div (lossSum f lbl ctr) nd

/-- The rows of class `j`, the sum of their differences, and how many they are. -/
def members (lbl : LblArr) (j : Fin 64) : Finset (Fin 262144) := Finset.univ.filter fun r => cls lbl r = j
def sumE (f : FeatArr) (lbl : LblArr) (ctr : CtrArr) (j : Fin 64) (d : Fin 128) : EReal :=
  ∑ r ∈ members lbl j, diffE f lbl ctr r d
def cntE (lbl : LblArr) (j : Fin 64) : ℕ := (members lbl j).card

/-- The class's summed difference over the number of its rows, an empty class counted as one row. -/
def differenceE (f : FeatArr) (lbl : LblArr) (ctr : CtrArr) (j : Fin 64) (d : Fin 128) : EReal :=
  Ideal.div (sumE f lbl ctr j d) (max 1 ((cntE lbl j : ℝ) : EReal))

/-- The three results as arrays. -/
def lossG (f : FeatArr) (lbl : LblArr) (ctr : CtrArr) : (⟨0, ![]⟩ : Shape).Idx → EReal := fun _ => lossE f lbl ctr
def differenceG (f : FeatArr) (lbl : LblArr) (ctr : CtrArr) : (⟨2, ![64, 128]⟩ : Shape).Idx → EReal :=
  fun i => differenceE f lbl ctr (i 0) (i 1)
def distG (f : FeatArr) (ctr : CtrArr) : (⟨2, ![262144, 64]⟩ : Shape).Idx → EReal :=
  fun i => distE f ctr (i 0) (i 1)

/-! ## The kernel's tiling: 2 cores × 16 steps, 8192 rows a step -/

/-- Grid point `t` of 32 reads rows 8192·t … 8192·t + 8191; point `t` is step `t % 16` of core `t / 16`. -/
def row (t : Fin 32) (p : Fin 8192) : Fin 262144 := ⟨8192 * t.val + p.val, by omega⟩
def pt (c : Fin 2) (s : Fin 16) : Fin 32 := ⟨16 * c.val + s.val, by omega⟩

/-- Row `r` is of class `j`: 1 or 0. -/
def hotE (lbl : LblArr) (r : Fin 262144) (j : Fin 64) : EReal := if cls lbl r = j then 1 else 0

/-- What point `t` adds to its core's three running totals: its block's squared differences, its block's
    differences class by class, and its block's rows class by class. -/
def lossPart (f : FeatArr) (lbl : LblArr) (ctr : CtrArr) (t : Fin 32) : EReal :=
  ∑ p : Fin 8192, ∑ d : Fin 128, diffE f lbl ctr (row t p) d * diffE f lbl ctr (row t p) d
def sumPart (f : FeatArr) (lbl : LblArr) (ctr : CtrArr) (t : Fin 32) (j : Fin 64) (d : Fin 128) : EReal :=
  ∑ p : Fin 8192, hotE lbl (row t p) j * diffE f lbl ctr (row t p) d
def cntPart (lbl : LblArr) (t : Fin 32) (j : Fin 64) : EReal := ∑ p : Fin 8192, hotE lbl (row t p) j

/-- A core's running total after step `n`: from zero at step 0, each step adding its part, in step order. -/
def accum (part : Fin 32 → EReal) (c : Fin 2) : ℕ → EReal
  | 0 => 0 + part (pt c 0)
  | n + 1 => accum part c n + part (pt c ⟨(n + 1) % 16, Nat.mod_lt _ (by decide)⟩)

end Cert.CenterLoss

end
-- ==== Proof.KBlocks.lean ====
/-
  What the four input windows hold at grid point t, in terms of the three argument arrays. The feature window's block
  is rows 8192·t … 8192·t + 8191 of the features; the label window's block is the same stretch of the labels, which
  the host first lays out as one row of 262144; the centre window's block is the whole centre table at every point; and
  the fourth window's block is the row of the centres' squared norms, which the host computes before the region as the
  sum over a centre's 128 entries of their squares.
-/
import proofs.«418898_j80367428042770_2_alg».proof.Proof.Gen.KernelIdeal.Frame
import proofs.«418898_j80367428042770_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.KernelIdeal.KBlocks

open Cert.KernelIdeal Cert.KernelIdeal.Gen Cert.CenterLoss Idealize.ShloMosaic Idealize.ShloMosaic.TcCoe Idealize.SL.Sem
open Idealize.ShloMosaic.ValueIdx Idealize.ShloMosaic.StableHlo

/-- A grid point as a number below 32. -/
def pt32 (t : Fin cfg0.N) : Fin 32 := ⟨t.val, lt_of_lt_of_eq t.isLt (show cfg0.N = 32 from N_0)⟩

theorem pt32_val (t : Fin cfg0.N) : (pt32 t).val = t.val := rfl

/-! ## Which block each window reads at point t -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

section AnyValues

variable {F : FTy → Type} [FloatOps F]
variable (m : (ℓ : Loc nD τ sig) → Buf (Elt F) ℓ)

/-- The labels as the region finds them: laid out as one row. -/
theorem V_main_v0 (c : Dev nD) :
    (V m c main_v0 : S1x262144.Idx → BitVec 32)
      = shapeCast S1x262144 (m ((c.tc : Thread nD τ).loc main_arg1)) shapeCasts_S262144_S1x262144 := by
  show StableHlo.after hostOps0 (fun b => m (c, b)) (Proc.devRef .tc main_v0) = _
  after_results
  rfl

/-- The centres' squared norms as the region finds them: each centre's squares summed, laid out as one row. -/
theorem V_main_v3 (c : Dev nD) :
    (V m c main_v3 : S1x64.Idx → F .f32)
      = shapeCast S1x64 (Host.reduceAdd (mulf (m ((c.tc : Thread nD τ).loc main_arg2)) (m ((c.tc : Thread nD τ).loc main_arg2)))
          (constant S_ .f32 0x00000000#32) reducesTo_S64x128_S64_d1 h_S_) shapeCasts_S64_S1x64 := by
  show StableHlo.after hostOps0 (fun b => m (c, b)) (Proc.devRef .tc main_v3) = _
  after_results
  rfl

/-- Row p of the feature block at point t is row 8192·t + p of the features. -/
theorem blk0_apply (c : Dev nD) (t : Fin cfg0.N) (p : Fin 8192) (k : Fin 128) :
    (iblk m c 0 t : Vec F S8192x128 .f32) (ix2 p k)
      = (m ((c.tc : Thread nD τ).loc main_arg0) : S262144x128.Idx → F .f32) (ix2 (row (pt32 t) p) k) := by
  unfold iblk
  rw [View.read_apply]
  show V m c main_arg0 _ = _
  rw [V_main_arg0]
  congr 1
  funext a
  apply Fin.ext
  match a with
  | ⟨0, _⟩ => show win0_0.index t 0 * 8192 + 1 * p.val = 8192 * t.val + p.val; rw [(idx0 t).1]; omega
  | ⟨1, _⟩ => show win0_0.index t 1 * 128 + 1 * k.val = k.val; rw [(idx0 t).2]; omega

/-- Entry p of the label block at point t is label 8192·t + p. -/
theorem blk1_apply (c : Dev nD) (t : Fin cfg0.N) (p : Fin 8192) :
    (iblk m c 1 t : Vec F S1x8192 .i32) (ix2 (0 : Fin 1) p)
      = (m ((c.tc : Thread nD τ).loc main_arg1) : S262144.Idx → BitVec 32) (ix1 (row (pt32 t) p)) := by
  unfold iblk
  rw [View.read_apply]
  show V m c main_v0 _ = _
  rw [V_main_v0]
  refine (congrArg (shapeCast S1x262144 (m ((c.tc : Thread nD τ).loc main_arg1)) shapeCasts_S262144_S1x262144)
    (?_ : _ = ix2 (0 : Fin 1) (row (pt32 t) p))).trans
    (shapeCast_a_1a_apply (m ((c.tc : Thread nD τ).loc main_arg1)) shapeCasts_S262144_S1x262144 (0 : Fin 1) (row (pt32 t) p))
  funext a
  apply Fin.ext
  match a with
  | ⟨0, _⟩ => show win0_1.index t 0 * 1 + 1 * 0 = 0; rw [(idx1 t).1]
  | ⟨1, _⟩ => show win0_1.index t 1 * 8192 + 1 * p.val = 8192 * t.val + p.val; rw [(idx1 t).2]; omega

/-- The centre block at every point is the centre table. -/
theorem blk2_eq (c : Dev nD) (t : Fin cfg0.N) :
    (iblk m c 2 t : Vec F S64x128 .f32) = m ((c.tc : Thread nD τ).loc main_arg2) := by
  funext y
  unfold iblk
  rw [View.read_apply]
  show V m c main_arg2 _ = _
  rw [V_main_arg2]
  congr 1
  funext a
  apply Fin.ext
  match a with
  | ⟨0, _⟩ => show win0_2.index t 0 * 64 + 1 * (y 0).val = (y 0).val; rw [(idx2 t).1]; omega
  | ⟨1, _⟩ => show win0_2.index t 1 * 128 + 1 * (y 1).val = (y 1).val; rw [(idx2 t).2]; omega

end AnyValues

/-! ## The squared norms, over the extended reals -/

/-- The host's row of squared norms, read at centre j: the sum over the centre's 128 entries of their squares. -/
theorem sqnorm_row (x2 : FVec Ideal S64x128 .f32) (j : Fin 64) :
    shapeCast S1x64 (Host.reduceAdd (mulf x2 x2) (constant S_ .f32 0x00000000#32) reducesTo_S64x128_S64_d1 h_S_)
      shapeCasts_S64_S1x64 (ix2 (0 : Fin 1) j) = sqCtr x2 j := by
  rw [shapeCast_a_1a_apply]
  simp only [Host.reduceAdd, Ideal.hostReduceAdd_def]
  rw [Ideal.hostReduceAdd_single reducesTo_S64x128_S64_d1 (by decide)]
  show Ideal.ofBits .f32 0x00000000#32 + _ = _
  rw [Ideal.ofBits_zero_f32, zero_add]
  unfold sqCtr
  refine Finset.sum_congr rfl fun k _ => ?_
  show x2 _ * x2 _ = _
  have hi : ((by decide : Shape.Reduces S64x128 [1] S64).lift (ix1 j) k : S64x128.Idx) = ix2 j k :=
    funext fun a => Fin.ext (by match a with | ⟨0, _⟩ => rfl | ⟨1, _⟩ => rfl)
  rw [hi]
  rfl

/-- Entry j of the fourth window's block at every point is centre j's squared norm. -/
theorem blk3_apply (m : (ℓ : Loc nD τ sig) → Buf (Elt Ideal) ℓ) (c : Dev nD) (t : Fin cfg0.N) (j : Fin 64) :
    (iblk m c 3 t : Vec Ideal S1x64 .f32) (ix2 (0 : Fin 1) j) = sqCtr (m ((c.tc : Thread nD τ).loc main_arg2)) j := by
  unfold iblk
  rw [View.read_apply]
  show V m c main_v3 _ = _
  rw [V_main_v3]
  refine (congrArg _ (?_ : _ = ix2 (0 : Fin 1) j)).trans (sqnorm_row _ j)
  funext a
  apply Fin.ext
  match a with
  | ⟨0, _⟩ => show win0_3.index t 0 * 1 + 1 * 0 = 0; rw [(idx3 t).1]
  | ⟨1, _⟩ => show win0_3.index t 1 * 64 + 1 * j.val = j.val; rw [(idx3 t).2]; omega

end Cert.KernelIdeal.KBlocks

end
-- ==== Proof.KPay.lean ====
/-
  The kernel body's arithmetic at one grid point, read index by index over the extended reals. The point's feature
  block `x0`, label row `x1`, centres `x2` and centre norms `x3` are variables here, tied to the whole arrays only by
  the equations a lemma takes: row `p` of the block is row `row t p` of the features, and so on.
-/
import proofs.«418898_j80367428042770_2_alg».proof.Proof.Gen.KernelIdeal.Skeleton
import proofs.«418898_j80367428042770_2_alg».proof.Proof.Spec
import Idealize.ShloMosaic.Lib.ValueLayout

open scoped BigOperators

noncomputable section

namespace Cert.KernelIdeal.KPay

open Cert.KernelIdeal Cert.KernelIdeal.Gen Cert.CenterLoss Idealize.ShloMosaic Idealize.ShloMosaic.ValueIdx

/-! ## The one-hot block -/

/-- The label row, cast to its own shape and broadcast down the 64 classes, reads the label of column `p`. -/
private theorem label_bcast (x1 : Vec Ideal S1x8192 .i32) (j : Fin 64) (p : Fin 8192) :
    broadcastTo S64x8192 (shapeCast S1x8192 x1 shapeCasts_S1x8192_S1x8192) broadcasts_S1x8192_S64x8192 (ix2 j p)
      = x1 (ix2 (0 : Fin 1) p) := by
  rw [shapeCast_self]
  exact broadcastTo_1b_ab_apply x1 broadcasts_S1x8192_S64x8192 j p

/-- The entry as a word: the class number compared with the label, widened, read signed. -/
private theorem pay8_word (x1 : Vec Ideal S1x8192 .i32) (j : Fin 64) (p : Fin 8192) :
    k0_pay8 (F := Ideal) x1 (ix2 j p)
      = (((IntOp.cmpi .eq (BitVec.ofNat 32 j.val) (x1 (ix2 (0 : Fin 1) p))).setWidth 32).toInt : ℝ) := by
  unfold k0_pay8
  show FloatOps.sitofp (F := Ideal) .f32 ((IntOp.cmpi .eq (iota .tc S64x8192 32 [0] iota_S64x8192_d0_w32 (ix2 j p))
      (broadcastTo S64x8192 (shapeCast S1x8192 x1 shapeCasts_S1x8192_S1x8192) broadcasts_S1x8192_S64x8192 (ix2 j p))).setWidth 32) = _
  rw [label_bcast, iota_single_apply]
  rfl

/-- A 32-bit word that reads signed into [0, 64) is the word of class `j` exactly when it reads `j`. -/
private theorem word_eq_iff (w : BitVec 32) (j : Fin 64) (h0 : 0 ≤ w.toInt) (h1 : w.toInt < 64) :
    BitVec.ofNat 32 j.val = w ↔ w.toInt = (j.val : Int) := by
  have hj := j.isLt
  have hw := w.isLt
  have hnat : w.toInt = (w.toNat : Int) := by
    rw [BitVec.toInt_eq_toNat_cond] at h0 ⊢
    split_ifs at h0 ⊢ with hlt
    · rfl
    · omega
  constructor
  · intro h
    have : w.toNat = j.val := by
      rw [← h, BitVec.toNat_ofNat]
      omega
    omega
  · intro h
    apply BitVec.eq_of_toNat_eq
    rw [BitVec.toNat_ofNat]
    omega

/-- The one-hot entry: class `j` against the label of block row `p`. -/
theorem pay8_hot (x1 : Vec Ideal S1x8192 .i32) (lbl : LblArr) (t : Fin 32)
    (hl : ∀ p : Fin 8192, x1 (ix2 (0 : Fin 1) p) = lbl (ix1 (row t p))) (hr : InRange lbl) (j : Fin 64) (p : Fin 8192) :
    k0_pay8 (F := Ideal) x1 (ix2 j p) = hotE lbl (row t p) j := by
  rw [pay8_word, hl p]
  have hrp := hr (row t p)
  have hcv := cls_val lbl hr (row t p)
  unfold hotE
  by_cases hw : BitVec.ofNat 32 j.val = lbl (ix1 (row t p))
  · have hc : cls lbl (row t p) = j := Fin.ext (by
      have := (word_eq_iff _ j hrp.1 hrp.2).mp hw
      omega)
    rw [if_pos hc, IntOp.cmpi_eq.mpr hw]
    norm_num
  · have hc : ¬ cls lbl (row t p) = j := fun h =>
      hw ((word_eq_iff _ j hrp.1 hrp.2).mpr (by rw [← hcv, h]))
    rw [if_neg hc, eq_zero_of_ne_one (fun h => hw (IntOp.cmpi_eq.mp h))]
    norm_num

/-! ## The row's own centre: the one-hot block times the centres -/

/-- The operand indices of the product (64 classes contracted; block row `p` from the left operand's second axis,
    feature `d` from the right operand's second axis), axis by axis. -/
private theorem own_lhs_0 (i : S8192x128.Idx) (q : dot_S64x8192_S64x128_S8192x128_0_0_1_1_n_n.contr.Idx) :
    (dot_S64x8192_S64x128_S8192x128_0_0_1_1_n_n.lhsIdx i q 0).val = (q ⟨0, by decide⟩).val :=
  dot_S64x8192_S64x128_S8192x128_0_0_1_1_n_n.lhsIdx_val_of_single rfl i q
private theorem own_lhs_1 (i : S8192x128.Idx) (q : dot_S64x8192_S64x128_S8192x128_0_0_1_1_n_n.contr.Idx) :
    (dot_S64x8192_S64x128_S8192x128_0_0_1_1_n_n.lhsIdx i q 1).val = (i 0).val := by
  unfold DotDims.lhsIdx
  rw [dif_neg (show ¬(1 : Fin S64x8192.rank) ∈ dot_S64x8192_S64x128_S8192x128_0_0_1_1_n_n.lhsBatch by decide), dif_pos (show (1 : Fin S64x8192.rank) ∈ dot_S64x8192_S64x128_S8192x128_0_0_1_1_n_n.lhsNonContracting by decide)]
  rfl
private theorem own_rhs_0 (i : S8192x128.Idx) (q : dot_S64x8192_S64x128_S8192x128_0_0_1_1_n_n.contr.Idx) :
    (dot_S64x8192_S64x128_S8192x128_0_0_1_1_n_n.rhsIdx i q 0).val = (q ⟨0, by decide⟩).val :=
  dot_S64x8192_S64x128_S8192x128_0_0_1_1_n_n.rhsIdx_val_of_single rfl i q
private theorem own_rhs_1 (i : S8192x128.Idx) (q : dot_S64x8192_S64x128_S8192x128_0_0_1_1_n_n.contr.Idx) :
    (dot_S64x8192_S64x128_S8192x128_0_0_1_1_n_n.rhsIdx i q 1).val = (i 1).val := by
  unfold DotDims.rhsIdx
  rw [dif_neg (show ¬(1 : Fin S64x128.rank) ∈ dot_S64x8192_S64x128_S8192x128_0_0_1_1_n_n.rhsBatch by decide), dif_pos (show (1 : Fin S64x128.rank) ∈ dot_S64x8192_S64x128_S8192x128_0_0_1_1_n_n.rhsNonContracting by decide)]
  rfl

/-- The product into zero at (p, d): the sum over the classes of the left operand at (j, p) times the right at (j, d). -/
private theorem own_matmul (h : FVec Ideal S64x8192 .f32) (x2 : FVec Ideal S64x128 .f32) (p : Fin 8192) (d : Fin 128) :
    matmul dot_S64x8192_S64x128_S8192x128_0_0_1_1_n_n none h x2 (constant (F := Ideal) S8192x128 .f32 0x00000000#32) (ix2 p d)
      = ∑ j : Fin 64, h (ix2 j p) * x2 (ix2 j d) := by
  simp only [matmul]
  rw [Ideal.matmul_constant_zero_apply, ← Equiv.sum_comp (contrEquiv1 dot_S64x8192_S64x128_S8192x128_0_0_1_1_n_n 64 rfl rfl).symm]
  refine Finset.sum_congr rfl fun k _ => ?_
  have hk := contrEquiv1_symm_val dot_S64x8192_S64x128_S8192x128_0_0_1_1_n_n 64 rfl rfl k
  have el : dot_S64x8192_S64x128_S8192x128_0_0_1_1_n_n.lhsIdx (ix2 p d) ((contrEquiv1 dot_S64x8192_S64x128_S8192x128_0_0_1_1_n_n 64 rfl rfl).symm k) = ix2 k p := funext fun a => Fin.ext (by
    match a with
    | ⟨0, _⟩ => exact (own_lhs_0 _ _).trans hk
    | ⟨1, _⟩ => exact own_lhs_1 _ _)
  have er : dot_S64x8192_S64x128_S8192x128_0_0_1_1_n_n.rhsIdx (ix2 p d) ((contrEquiv1 dot_S64x8192_S64x128_S8192x128_0_0_1_1_n_n 64 rfl rfl).symm k) = ix2 k d := funext fun a => Fin.ext (by
    match a with
    | ⟨0, _⟩ => exact (own_rhs_0 _ _).trans hk
    | ⟨1, _⟩ => exact own_rhs_1 _ _)
  rw [el, er]

/-- A one-hot row against a column picks the column's entry at the hot class: every other term is 0 · x = 0. -/
private theorem hot_sum (lbl : LblArr) (r : Fin 262144) (g : Fin 64 → EReal) :
    ∑ j : Fin 64, hotE lbl r j * g j = g (cls lbl r) := by
  rw [Finset.sum_eq_single (cls lbl r)]
  · unfold hotE
    rw [if_pos rfl, one_mul]
  · intro j _ hj
    unfold hotE
    rw [if_neg (fun h => hj h.symm), zero_mul]
  · intro h
    exact absurd (Finset.mem_univ _) h

/-- The one-hot product with the centres is the row's own centre; less the row: the difference. -/
theorem pay9_diff (x0 : Vec Ideal S8192x128 .f32) (x1 : Vec Ideal S1x8192 .i32) (x2 : Vec Ideal S64x128 .f32)
    (f : FeatArr) (lbl : LblArr) (ctr : CtrArr) (t : Fin 32)
    (hf : ∀ (p : Fin 8192) (k : Fin 128), x0 (ix2 p k) = f (ix2 (row t p) k))
    (hl : ∀ p : Fin 8192, x1 (ix2 (0 : Fin 1) p) = lbl (ix1 (row t p))) (hr : InRange lbl) (hc : x2 = ctr)
    (p : Fin 8192) (d : Fin 128) :
    k0_pay9 (F := Ideal) x0 x1 x2 (ix2 p d) = diffE f lbl ctr (row t p) d := by
  unfold k0_pay9
  show matmul dot_S64x8192_S64x128_S8192x128_0_0_1_1_n_n none (k0_pay8 (F := Ideal) x1) x2
      (constant (F := Ideal) S8192x128 .f32 0x00000000#32) (ix2 p d) - x0 (ix2 p d) = _
  rw [own_matmul, hf p d]
  have hs : ∑ j : Fin 64, k0_pay8 (F := Ideal) x1 (ix2 j p) * x2 (ix2 j d)
      = ∑ j : Fin 64, hotE lbl (row t p) j * ctr (ix2 j d) :=
    Finset.sum_congr rfl fun j _ => by rw [pay8_hot x1 lbl t hl hr j p, hc]
  rw [hs, hot_sum lbl (row t p) fun j => ctr (ix2 j d)]
  rfl

/-! ## The distance block -/

/-- The lane sum of the squared block at row `p`: the row's squared norm. -/
private theorem sq_lanes (x0 : FVec Ideal S8192x128 .f32) (p : Fin 8192) :
    multiReduction (F := Ideal) .add [1] S8192 (mulf x0 x0) 0x00000000#32 reduces_S8192x128_S8192 (.inl rfl) rfl (ix1 p)
      = ∑ k : Fin 128, x0 (ix2 p k) * x0 (ix2 p k) := by
  refine (Ideal.multiReduction_add_single (mulf x0 x0) 0x00000000#32 reduces_S8192x128_S8192 (.inl rfl) rfl (ix1 p)).trans ?_
  show ∑ k : Fin 128, mulf x0 x0 (reduces_S8192x128_S8192.lift (ix1 p) k) = _
  refine Finset.sum_congr rfl fun k _ => ?_
  have e : reduces_S8192x128_S8192.lift (ix1 p) k = ix2 p k := funext fun a => Fin.ext (by
    match a with
    | ⟨0, _⟩ => rfl
    | ⟨1, _⟩ => rfl)
  rw [e]
  rfl

/-- An `[a]` array cast to the column `[a, 1]` reads, at `(p, u)`, the operand at `p`. -/
private theorem col_cast {α : Type} (v : S8192.Idx → α) (p : Fin 8192) (u : Fin 1) :
    shapeCast S8192x1 v shapeCasts_S8192_S8192x1 (ix2 p u) = v (ix1 p) :=
  shapeCast_apply v shapeCasts_S8192_S8192x1 _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, j)`, the column at `p`. -/
private theorem col_bcast {α : Type} (v : S8192x1.Idx → α) (p : Fin 8192) (j : Fin 64) :
    broadcastTo S8192x64 v broadcasts_S8192x1_S8192x64 (ix2 p j) = v (ix2 p (0 : Fin 1)) := by
  refine broadcastTo_apply v broadcasts_S8192x1_S8192x64 (ix2 p j) (ix2 p (0 : Fin 1)) fun ax => ?_
  match ax with
  | ⟨0, _⟩ =>
    show p.val = if (8192 : Nat) = 1 then 0 else p.val
    rw [if_neg (by decide)]
  | ⟨1, _⟩ => rfl

/-- The centre-norm row, cast to its own shape and broadcast down the block's rows, reads the norm of centre `j`. -/
private theorem norm_bcast (x3 : Vec Ideal S1x64 .f32) (p : Fin 8192) (j : Fin 64) :
    broadcastTo S8192x64 (shapeCast S1x64 x3 shapeCasts_S1x64_S1x64) broadcasts_S1x64_S8192x64 (ix2 p j)
      = x3 (ix2 (0 : Fin 1) j) := by
  rw [shapeCast_self]
  exact broadcastTo_1b_ab_apply x3 broadcasts_S1x64_S8192x64 p j

/-- The operand indices of the product of the block with the centres (128 features contracted on the second axis of
    both; block row `p` from the left operand, centre `j` from the right), axis by axis. -/
private theorem dot_lhs_0 (i : S8192x64.Idx) (q : dot_S8192x128_S64x128_S8192x64_1_1_0_0_n_n.contr.Idx) :
    (dot_S8192x128_S64x128_S8192x64_1_1_0_0_n_n.lhsIdx i q 0).val = (i 0).val := by
  unfold DotDims.lhsIdx
  rw [dif_neg (show ¬(0 : Fin S8192x128.rank) ∈ dot_S8192x128_S64x128_S8192x64_1_1_0_0_n_n.lhsBatch by decide), dif_pos (show (0 : Fin S8192x128.rank) ∈ dot_S8192x128_S64x128_S8192x64_1_1_0_0_n_n.lhsNonContracting by decide)]
  rfl
private theorem dot_lhs_1 (i : S8192x64.Idx) (q : dot_S8192x128_S64x128_S8192x64_1_1_0_0_n_n.contr.Idx) :
    (dot_S8192x128_S64x128_S8192x64_1_1_0_0_n_n.lhsIdx i q 1).val = (q ⟨0, by decide⟩).val :=
  dot_S8192x128_S64x128_S8192x64_1_1_0_0_n_n.lhsIdx_val_of_single rfl i q
private theorem dot_rhs_0 (i : S8192x64.Idx) (q : dot_S8192x128_S64x128_S8192x64_1_1_0_0_n_n.contr.Idx) :
    (dot_S8192x128_S64x128_S8192x64_1_1_0_0_n_n.rhsIdx i q 0).val = (i 1).val := by
  unfold DotDims.rhsIdx
  rw [dif_neg (show ¬(0 : Fin S64x128.rank) ∈ dot_S8192x128_S64x128_S8192x64_1_1_0_0_n_n.rhsBatch by decide), dif_pos (show (0 : Fin S64x128.rank) ∈ dot_S8192x128_S64x128_S8192x64_1_1_0_0_n_n.rhsNonContracting by decide)]
  rfl
private theorem dot_rhs_1 (i : S8192x64.Idx) (q : dot_S8192x128_S64x128_S8192x64_1_1_0_0_n_n.contr.Idx) :
    (dot_S8192x128_S64x128_S8192x64_1_1_0_0_n_n.rhsIdx i q 1).val = (q ⟨0, by decide⟩).val :=
  dot_S8192x128_S64x128_S8192x64_1_1_0_0_n_n.rhsIdx_val_of_single rfl i q

/-- The product into zero at (p, j): the sum over the features of the block at (p, k) times the centres at (j, k). -/
private theorem dot_matmul (x0 : FVec Ideal S8192x128 .f32) (x2 : FVec Ideal S64x128 .f32) (p : Fin 8192) (j : Fin 64) :
    matmul dot_S8192x128_S64x128_S8192x64_1_1_0_0_n_n none x0 x2 (constant (F := Ideal) S8192x64 .f32 0x00000000#32) (ix2 p j)
      = ∑ k : Fin 128, x0 (ix2 p k) * x2 (ix2 j k) := by
  simp only [matmul]
  rw [Ideal.matmul_constant_zero_apply, ← Equiv.sum_comp (contrEquiv1 dot_S8192x128_S64x128_S8192x64_1_1_0_0_n_n 128 rfl rfl).symm]
  refine Finset.sum_congr rfl fun k _ => ?_
  have hk := contrEquiv1_symm_val dot_S8192x128_S64x128_S8192x64_1_1_0_0_n_n 128 rfl rfl k
  have el : dot_S8192x128_S64x128_S8192x64_1_1_0_0_n_n.lhsIdx (ix2 p j) ((contrEquiv1 dot_S8192x128_S64x128_S8192x64_1_1_0_0_n_n 128 rfl rfl).symm k) = ix2 p k := funext fun a => Fin.ext (by
    match a with
    | ⟨0, _⟩ => exact dot_lhs_0 _ _
    | ⟨1, _⟩ => exact (dot_lhs_1 _ _).trans hk)
  have er : dot_S8192x128_S64x128_S8192x64_1_1_0_0_n_n.rhsIdx (ix2 p j) ((contrEquiv1 dot_S8192x128_S64x128_S8192x64_1_1_0_0_n_n 128 rfl rfl).symm k) = ix2 j k := funext fun a => Fin.ext (by
    match a with
    | ⟨0, _⟩ => exact dot_rhs_0 _ _
    | ⟨1, _⟩ => exact (dot_rhs_1 _ _).trans hk)
  rw [el, er]

/-- The distance block: the row's squared norm plus the centre's, less twice their product. -/
theorem pay7_dist (x0 : Vec Ideal S8192x128 .f32) (x2 : Vec Ideal S64x128 .f32) (x3 : Vec Ideal S1x64 .f32)
    (f : FeatArr) (ctr : CtrArr) (t : Fin 32)
    (hf : ∀ (p : Fin 8192) (k : Fin 128), x0 (ix2 p k) = f (ix2 (row t p) k)) (hc : x2 = ctr)
    (h3 : ∀ j : Fin 64, x3 (ix2 (0 : Fin 1) j) = sqCtr ctr j) (p : Fin 8192) (j : Fin 64) :
    k0_pay7 (F := Ideal) x0 x2 x3 (ix2 p j) = distE f ctr (row t p) j := by
  unfold k0_pay7
  show (broadcastTo S8192x64 (shapeCast S8192x1
          (multiReduction (F := Ideal) .add [1] S8192 (mulf x0 x0) 0x00000000#32 reduces_S8192x128_S8192 (.inl rfl) rfl)
          shapeCasts_S8192_S8192x1) broadcasts_S8192x1_S8192x64 (ix2 p j)
        + broadcastTo S8192x64 (shapeCast S1x64 x3 shapeCasts_S1x64_S1x64) broadcasts_S1x64_S8192x64 (ix2 p j))
      - Ideal.ofBits .f32 0x40000000#32
        * matmul dot_S8192x128_S64x128_S8192x64_1_1_0_0_n_n none x0 x2 (constant (F := Ideal) S8192x64 .f32 0x00000000#32) (ix2 p j) = _
  rw [col_bcast, col_cast, sq_lanes, norm_bcast, dot_matmul, h3 j, hc]
  unfold distE sqRow dotRow two
  have e1 : ∑ k : Fin 128, x0 (ix2 p k) * x0 (ix2 p k) = ∑ k : Fin 128, f (ix2 (row t p) k) * f (ix2 (row t p) k) :=
    Finset.sum_congr rfl fun k _ => by rw [hf p k]
  have e2 : ∑ k : Fin 128, x0 (ix2 p k) * ctr (ix2 j k) = ∑ k : Fin 128, f (ix2 (row t p) k) * ctr (ix2 j k) :=
    Finset.sum_congr rfl fun k _ => by rw [hf p k]
  rw [e1, e2]

end Cert.KernelIdeal.KPay

end
-- ==== Proof.KPay2.lean ====
/-
  The kernel body's three running totals at one grid point, read over the extended reals: the loss cell gains the sum
  of the block's squared differences, the per-class sums gain the one-hot matrix times the block's differences, the
  per-class counts gain the one-hot matrix's row sums; the three resets of a core's first step store zero. (A change of
  float format is the identity on the extended reals, so the narrowed operands of the last product are the operands.)
-/
import proofs.«418898_j80367428042770_2_alg».proof.Proof.KPay
import Idealize.ShloMosaic.Lib.Pipeline.Value
import Idealize.ShloMosaic.Lib.ValueLayout

open scoped BigOperators

noncomputable section

namespace Cert.KernelIdeal.KPay

open Cert.KernelIdeal Cert.KernelIdeal.Gen Cert.CenterLoss Idealize.ShloMosaic Idealize.ShloMosaic.ValueIdx

/-- A reshape permutes the entries, so it keeps their sum. -/
private theorem sum_shapeCast {s t : Shape} (x : s.Idx → EReal) (h : s.ShapeCasts t) :
    ∑ j : t.Idx, shapeCast t x h j = ∑ i : s.Idx, x i :=
  Equiv.sum_comp (Shape.reshapeEquiv h) x

/-- The loss cell gains the block's squared differences. -/
theorem pay10_loss (x0 : Vec Ideal S8192x128 .f32) (x1 : Vec Ideal S1x8192 .i32) (x2 : Vec Ideal S64x128 .f32)
    (v27 : Vec Ideal S1x1x1 .f32) (f : FeatArr) (lbl : LblArr) (ctr : CtrArr) (t : Fin 32)
    (hf : ∀ (p : Fin 8192) (k : Fin 128), x0 (ix2 p k) = f (ix2 (row t p) k))
    (hl : ∀ p : Fin 8192, x1 (ix2 (0 : Fin 1) p) = lbl (ix1 (row t p))) (hr : InRange lbl) (hc : x2 = ctr) :
    k0_pay1 (k0_pay10 (F := Ideal) x0 x1 x2 v27) (ix3 (0 : Fin 1) (0 : Fin 1) (0 : Fin 1))
      = v27 (ix3 (0 : Fin 1) (0 : Fin 1) (0 : Fin 1)) + lossPart f lbl ctr t := by
  unfold k0_pay1 k0_pay10
  generalize hy : k0_pay9 (F := Ideal) x0 x1 x2 = y
  -- the stored cell is the old cell plus one number, read at its only index
  refine (shapeCast_ab_1ab_apply _ shapeCasts_S1x1_S1x1x1 (0 : Fin 1) (0 : Fin 1) (0 : Fin 1)).trans ?_
  rw [addf_apply, shapeCast_1ab_ab_apply v27 shapeCasts_S1x1x1_S1x1 (0 : Fin 1) (0 : Fin 1)]
  refine congrArg (v27 (ix3 (0 : Fin 1) (0 : Fin 1) (0 : Fin 1)) + ·) ?_
  rw [broadcast_apply]
  unfold extractAt
  refine (shapeCast_apply _ shapeCasts_S1_S1x1x1 _ (ix1 (0 : Fin 1)) ?_).trans ?_
  · rw [Shape.rowMajor_val_one, Shape.rowMajor_val_three]
    rfl
  -- that number is the sum of every entry of the squared block: a double sum over rows and features
  refine (Ideal.multiReduction_add_total _ _ reduces_S1x8192x128_S1 (by decide) _ _ (ix1 (0 : Fin 1))).trans ?_
  refine (sum_shapeCast _ _).trans ?_
  refine (sum_idx2 _).trans ?_
  unfold lossPart
  refine Finset.sum_congr rfl fun p _ => Finset.sum_congr rfl fun d _ => ?_
  rw [mulf_apply, ← hy, pay9_diff x0 x1 x2 f lbl ctr t hf hl hr hc p d]

/-- The four coordinates of the two operand indices of the one-hot-by-differences product: the left operand is read at
    (class, row), the right at (row, feature), the row being the contraction's one coordinate. -/
private theorem lhs_pay2_0 (i : S64x128.Idx) (q : dot_S64x8192_S8192x128_S64x128_1_0_0_1_n_n.contr.Idx) :
    (dot_S64x8192_S8192x128_S64x128_1_0_0_1_n_n.lhsIdx i q 0).val = (i 0).val := by
  unfold DotDims.lhsIdx
  rw [dif_neg (show ¬(0 : Fin S64x8192.rank) ∈ dot_S64x8192_S8192x128_S64x128_1_0_0_1_n_n.lhsBatch by decide),
    dif_pos (show (0 : Fin S64x8192.rank) ∈ dot_S64x8192_S8192x128_S64x128_1_0_0_1_n_n.lhsNonContracting by decide)]
  rfl
private theorem lhs_pay2_1 (i : S64x128.Idx) (q : dot_S64x8192_S8192x128_S64x128_1_0_0_1_n_n.contr.Idx) :
    (dot_S64x8192_S8192x128_S64x128_1_0_0_1_n_n.lhsIdx i q 1).val = (q ⟨0, by decide⟩).val :=
  dot_S64x8192_S8192x128_S64x128_1_0_0_1_n_n.lhsIdx_val_of_single rfl i q
private theorem rhs_pay2_0 (i : S64x128.Idx) (q : dot_S64x8192_S8192x128_S64x128_1_0_0_1_n_n.contr.Idx) :
    (dot_S64x8192_S8192x128_S64x128_1_0_0_1_n_n.rhsIdx i q 0).val = (q ⟨0, by decide⟩).val :=
  dot_S64x8192_S8192x128_S64x128_1_0_0_1_n_n.rhsIdx_val_of_single rfl i q
private theorem rhs_pay2_1 (i : S64x128.Idx) (q : dot_S64x8192_S8192x128_S64x128_1_0_0_1_n_n.contr.Idx) :
    (dot_S64x8192_S8192x128_S64x128_1_0_0_1_n_n.rhsIdx i q 1).val = (i 1).val := by
  unfold DotDims.rhsIdx
  rw [dif_neg (show ¬(1 : Fin S8192x128.rank) ∈ dot_S64x8192_S8192x128_S64x128_1_0_0_1_n_n.rhsBatch by decide),
    dif_pos (show (1 : Fin S8192x128.rank) ∈ dot_S64x8192_S8192x128_S64x128_1_0_0_1_n_n.rhsNonContracting by decide)]
  rfl

/-- The per-class sums gain the block's differences, class by class. -/
theorem pay2_sum (x0 : Vec Ideal S8192x128 .f32) (x1 : Vec Ideal S1x8192 .i32) (x2 : Vec Ideal S64x128 .f32)
    (v42 : Vec Ideal S1x64x128 .f32) (f : FeatArr) (lbl : LblArr) (ctr : CtrArr) (t : Fin 32)
    (hf : ∀ (p : Fin 8192) (k : Fin 128), x0 (ix2 p k) = f (ix2 (row t p) k))
    (hl : ∀ p : Fin 8192, x1 (ix2 (0 : Fin 1) p) = lbl (ix1 (row t p))) (hr : InRange lbl) (hc : x2 = ctr)
    (j : Fin 64) (d : Fin 128) :
    k0_pay2 (F := Ideal) (k0_pay8 x1) (k0_pay9 x0 x1 x2) v42 (ix3 (0 : Fin 1) j d)
      = v42 (ix3 (0 : Fin 1) j d) + sumPart f lbl ctr t j d := by
  generalize hy : k0_pay8 (F := Ideal) x1 = y
  generalize hz : k0_pay9 (F := Ideal) x0 x1 x2 = z
  unfold k0_pay2
  -- the stored entry is the old entry plus the product's entry
  refine (shapeCast_ab_1ab_apply _ shapeCasts_S64x128_S1x64x128 (0 : Fin 1) j d).trans ?_
  rw [addf_apply, shapeCast_1ab_ab_apply v42 shapeCasts_S1x64x128_S64x128 j d]
  refine congrArg (v42 (ix3 (0 : Fin 1) j d) + ·) ?_
  -- the product's entry is the sum over the block's rows of one-hot entry times difference
  simp only [matmul]
  rw [Ideal.matmul_constant_zero_apply,
    ← Equiv.sum_comp (contrEquiv1 dot_S64x8192_S8192x128_S64x128_1_0_0_1_n_n 8192 rfl rfl).symm]
  unfold sumPart
  refine Finset.sum_congr rfl fun p _ => ?_
  have hk := contrEquiv1_symm_val dot_S64x8192_S8192x128_S64x128_1_0_0_1_n_n 8192 rfl rfl p
  have el : dot_S64x8192_S8192x128_S64x128_1_0_0_1_n_n.lhsIdx (ix2 j d)
      ((contrEquiv1 dot_S64x8192_S8192x128_S64x128_1_0_0_1_n_n 8192 rfl rfl).symm p) = ix2 j p :=
    funext fun a => Fin.ext (by
      match a with
      | ⟨0, _⟩ => exact lhs_pay2_0 _ _
      | ⟨1, _⟩ => exact (lhs_pay2_1 _ _).trans hk)
  have er : dot_S64x8192_S8192x128_S64x128_1_0_0_1_n_n.rhsIdx (ix2 j d)
      ((contrEquiv1 dot_S64x8192_S8192x128_S64x128_1_0_0_1_n_n 8192 rfl rfl).symm p) = ix2 p d :=
    funext fun a => Fin.ext (by
      match a with
      | ⟨0, _⟩ => exact (rhs_pay2_0 _ _).trans hk
      | ⟨1, _⟩ => exact rhs_pay2_1 _ _)
  rw [el, er, truncf_apply, truncf_apply, ← hy, ← hz, pay8_hot x1 lbl t hl hr j p,
    pay9_diff x0 x1 x2 f lbl ctr t hf hl hr hc p d]

/-- The per-class counts gain the block's rows, class by class. -/
theorem pay3_cnt (x1 : Vec Ideal S1x8192 .i32) (v50 : Vec Ideal S1x64x1 .f32) (lbl : LblArr) (t : Fin 32)
    (hl : ∀ p : Fin 8192, x1 (ix2 (0 : Fin 1) p) = lbl (ix1 (row t p))) (hr : InRange lbl) (j : Fin 64) :
    k0_pay3 (F := Ideal) (k0_pay8 x1) v50 (ix3 (0 : Fin 1) j (0 : Fin 1))
      = v50 (ix3 (0 : Fin 1) j (0 : Fin 1)) + cntPart lbl t j := by
  generalize hy : k0_pay8 (F := Ideal) x1 = y
  unfold k0_pay3
  -- the stored entry is the old entry plus the row sum's entry
  refine (shapeCast_ab_1ab_apply _ shapeCasts_S64x1_S1x64x1 (0 : Fin 1) j (0 : Fin 1)).trans ?_
  rw [addf_apply, shapeCast_1ab_ab_apply v50 shapeCasts_S1x64x1_S64x1 j (0 : Fin 1)]
  refine congrArg (v50 (ix3 (0 : Fin 1) j (0 : Fin 1)) + ·) ?_
  refine (shapeCast_apply _ shapeCasts_S64_S64x1 (ix2 j (0 : Fin 1)) (ix1 j) ?_).trans ?_
  · rw [Shape.rowMajor_val_one, Shape.rowMajor_val_two]
    show j.val = j.val * 1 + 0
    omega
  -- the row sum is the sum over the block's rows of the one-hot entries of class j
  refine (Ideal.multiReduction_add_single y _ reduces_S64x8192_S64 _ _ (ix1 j)).trans ?_
  unfold cntPart
  refine Finset.sum_congr rfl fun p _ => ?_
  have e : reduces_S64x8192_S64.lift (ix1 j) p = ix2 j p :=
    funext fun a => Fin.ext (by match a with | ⟨0, _⟩ => rfl | ⟨1, _⟩ => rfl)
  rw [e, ← hy]
  exact pay8_hot x1 lbl t hl hr j p

/-- The three resets store zero. -/
theorem pay4_zero (i : S1x64x128.Idx) : k0_pay4 (F := Ideal) i = 0 := by
  show Ideal.ofBits .f32 0x00000000#32 = 0
  exact Ideal.ofBits_zero_f32
theorem pay5_zero (i : S1x1x1.Idx) : k0_pay5 (F := Ideal) i = 0 := by
  show Ideal.ofBits .f32 0x00000000#32 = 0
  exact Ideal.ofBits_zero_f32
theorem pay6_zero (i : S1x64x1.Idx) : k0_pay6 (F := Ideal) i = 0 := by
  show Ideal.ofBits .f32 0x00000000#32 = 0
  exact Ideal.ofBits_zero_f32

end Cert.KernelIdeal.KPay

end
-- ==== Proof.KInv.lean ====
/-
  What the output windows' staging buffers hold after the body at each grid point, over the extended reals. Point t is
  step t mod 16 of core t div 16. The distance block at t is the distances of rows 8192·t … 8192·t + 8191 to the 64
  centres. The three running totals are carried from step to step within a core: at the core's first step they are
  reset and gain the step's part, at every later step they gain the step's part over what the step before left, so
  after step s they hold the core's parts of steps 0 … s added in order from zero.
-/
import proofs.«418898_j80367428042770_2_alg».proof.Proof.KPieces
import proofs.«418898_j80367428042770_2_alg».proof.Proof.KBlocks
import proofs.«418898_j80367428042770_2_alg».proof.Proof.KPay2

set_option maxRecDepth 16384

open scoped BigOperators

noncomputable section

namespace Cert.KernelIdeal.KInv

open Cert.KernelIdeal Cert.KernelIdeal.Gen Cert.CenterLoss Idealize.ShloMosaic Idealize.ShloMosaic.TcCoe Idealize.SL.Sem
open Idealize.ShloMosaic.ValueIdx Cert.KernelIdeal.KBlocks Cert.KernelIdeal.KPieces Cert.KernelIdeal.KPay

variable (m : (ℓ : Loc nD τ sig) → Buf (Elt Ideal) ℓ)

/-- The three argument arrays on core c. -/
abbrev fA (c : Dev nD) : FeatArr := m ((c.tc : Thread nD τ).loc main_arg0)
abbrev lA (c : Dev nD) : LblArr := m ((c.tc : Thread nD τ).loc main_arg1)
abbrev cA (c : Dev nD) : CtrArr := m ((c.tc : Thread nD τ).loc main_arg2)

/-- The four input blocks at point t, at their literal types. -/
abbrev b0 (c : Dev nD) (t : Fin cfg0.N) : Vec Ideal S8192x128 .f32 := iblk m c 0 t
abbrev b1 (c : Dev nD) (t : Fin cfg0.N) : Vec Ideal S1x8192 .i32 := iblk m c 1 t
abbrev b2 (c : Dev nD) (t : Fin cfg0.N) : Vec Ideal S64x128 .f32 := iblk m c 2 t
abbrev b3 (c : Dev nD) (t : Fin cfg0.N) : Vec Ideal S1x64 .f32 := iblk m c 3 t

theorem hb0 (c : Dev nD) (t : Fin cfg0.N) (p : Fin 8192) (k : Fin 128) :
    b0 m c t (ix2 p k) = fA m c (ix2 (row (pt32 t) p) k) := blk0_apply m c t p k
theorem hb1 (c : Dev nD) (t : Fin cfg0.N) (p : Fin 8192) :
    b1 m c t (ix2 (0 : Fin 1) p) = lA m c (ix1 (row (pt32 t) p)) := blk1_apply m c t p
theorem hb2 (c : Dev nD) (t : Fin cfg0.N) : b2 m c t = cA m c := blk2_eq m c t
theorem hb3 (c : Dev nD) (t : Fin cfg0.N) (j : Fin 64) :
    b3 m c t (ix2 (0 : Fin 1) j) = sqCtr (cA m c) j := blk3_apply m c t j

/-! ## One point's contents, as payloads of its blocks -/

/-- A core's first step: the distance block, and each running total the update of its reset. -/
theorem step_A (c : Dev nD) (t : Fin cfg0.N) (h0 : t.val % 16 = 0) :
    outsAt0 m c t.val t.isLt
      = (k0_pay7 (b0 m c t) (b2 m c t) (b3 m c t),
         k0_pay2 (k0_pay8 (b1 m c t)) (k0_pay9 (b0 m c t) (b1 m c t) (b2 m c t)) (k0_pay4 (F := Ideal)),
         k0_pay1 (k0_pay10 (b0 m c t) (b1 m c t) (b2 m c t) (k0_pay5 (F := Ideal))),
         k0_pay3 (k0_pay8 (b1 m c t)) (k0_pay6 (F := Ideal))) := by
  rw [outsAt0_A m c t h0,
    out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
    out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
    out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t),
    out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t)]

/-- What the point before left, at a point that is not a core's first. -/
abbrev prev (c : Dev nD) (t : Fin cfg0.N) :=
  outsAt0 m c (t.val - 1) (Nat.lt_of_le_of_lt (Nat.sub_le _ _) t.isLt)

/-- Every later step: the distance block, and each running total the update of what the step before left. -/
theorem step_B (c : Dev nD) (t : Fin cfg0.N) (h0 : ¬t.val % 16 = 0) :
    outsAt0 m c t.val t.isLt
      = (k0_pay7 (b0 m c t) (b2 m c t) (b3 m c t),
         k0_pay2 (k0_pay8 (b1 m c t)) (k0_pay9 (b0 m c t) (b1 m c t) (b2 m c t)) (prev m c t).2.1,
         k0_pay1 (k0_pay10 (b0 m c t) (b1 m c t) (b2 m c t) (prev m c t).2.2.1),
         k0_pay3 (k0_pay8 (b1 m c t)) (prev m c t).2.2.2) := by
  rw [outsAt0_B m c t h0,
    out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (prev m c t).2.1 (prev m c t).2.2.1 (prev m c t).2.2.2,
    out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (prev m c t).2.1 (prev m c t).2.2.1 (prev m c t).2.2.2,
    out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (prev m c t).2.1 (prev m c t).2.2.1 (prev m c t).2.2.2,
    out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (prev m c t).2.1 (prev m c t).2.2.1 (prev m c t).2.2.2]

/-! ## The distance block -/

/-- At every point the distance block holds the distances of the point's rows to the centres. -/
theorem dist_at (c : Dev nD) (t : Fin cfg0.N) (p : Fin 8192) (j : Fin 64) :
    (outsAt0 m c t.val t.isLt).1 (ix2 p j) = distE (fA m c) (cA m c) (row (pt32 t) p) j := by
  by_cases h0 : t.val % 16 = 0
  · rw [step_A m c t h0]
    exact pay7_dist (b0 m c t) (b2 m c t) (b3 m c t) (fA m c) (cA m c) (pt32 t) (hb0 m c t) (hb2 m c t) (hb3 m c t) p j
  · rw [step_B m c t h0]
    exact pay7_dist (b0 m c t) (b2 m c t) (b3 m c t) (fA m c) (cA m c) (pt32 t) (hb0 m c t) (hb2 m c t) (hb3 m c t) p j

/-! ## The three running totals -/

/-- The point that is step s of core k. -/
def gpt (k : Fin 2) (s : ℕ) (hs : s < 16) : Fin cfg0.N :=
  ⟨16 * k.val + s, by rw [show cfg0.N = 32 from N_0]; omega⟩

theorem pt32_gpt (k : Fin 2) (s : ℕ) (hs : s < 16) : pt32 (gpt k s hs) = pt k ⟨s, hs⟩ := Fin.ext rfl

theorem outsAt0_congr (c : Dev nD) {n n' : ℕ} (e : n = n') (h : n < cfg0.N) (h' : n' < cfg0.N) :
    outsAt0 m c n h = outsAt0 m c n' h' := by subst e; rfl

/-- What the step before step s + 1 of core k left is what step s of core k left. -/
theorem prev_gpt (c : Dev nD) (k : Fin 2) (s : ℕ) (hs : s + 1 < 16) :
    prev m c (gpt k (s + 1) hs) = outsAt0 m c (gpt k s (by omega)).val (gpt k s (by omega)).isLt :=
  outsAt0_congr m c (by show 16 * k.val + (s + 1) - 1 = 16 * k.val + s; omega) _ _

/-- After step s of core k the per-class sums, the loss cell and the per-class counts hold the core's parts of steps
    0 … s added in order from zero. -/
theorem totals_at (c : Dev nD) (hr : InRange (lA m c)) (k : Fin 2) :
    ∀ (s : ℕ) (hs : s < 16),
      (∀ (j : Fin 64) (d : Fin 128), (outsAt0 m c (gpt k s hs).val (gpt k s hs).isLt).2.1 (ix3 (0 : Fin 1) j d)
          = accum (fun u => sumPart (fA m c) (lA m c) (cA m c) u j d) k s)
      ∧ ((outsAt0 m c (gpt k s hs).val (gpt k s hs).isLt).2.2.1 (ix3 (0 : Fin 1) (0 : Fin 1) (0 : Fin 1))
          = accum (fun u => lossPart (fA m c) (lA m c) (cA m c) u) k s)
      ∧ (∀ j : Fin 64, (outsAt0 m c (gpt k s hs).val (gpt k s hs).isLt).2.2.2 (ix3 (0 : Fin 1) j (0 : Fin 1))
          = accum (fun u => cntPart (lA m c) u j) k s)
  | 0, hs => by
    have h0 : (gpt k 0 hs).val % 16 = 0 := by show (16 * k.val + 0) % 16 = 0; omega
    have hp : pt32 (gpt k 0 hs) = pt k 0 := pt32_gpt k 0 hs
    rw [step_A m c (gpt k 0 hs) h0]
    refine ⟨fun j d => ?_, ?_, fun j => ?_⟩
    · refine (pay2_sum (b0 m c (gpt k 0 hs)) (b1 m c (gpt k 0 hs)) (b2 m c (gpt k 0 hs)) (k0_pay4 (F := Ideal))
        (fA m c) (lA m c) (cA m c) (pt32 (gpt k 0 hs)) (hb0 m c _) (hb1 m c _) hr (hb2 m c _) j d).trans ?_
      rw [pay4_zero, hp]
      rfl
    · refine (pay10_loss (b0 m c (gpt k 0 hs)) (b1 m c (gpt k 0 hs)) (b2 m c (gpt k 0 hs)) (k0_pay5 (F := Ideal))
        (fA m c) (lA m c) (cA m c) (pt32 (gpt k 0 hs)) (hb0 m c _) (hb1 m c _) hr (hb2 m c _)).trans ?_
      rw [pay5_zero, hp]
      rfl
    · refine (pay3_cnt (b1 m c (gpt k 0 hs)) (k0_pay6 (F := Ideal)) (lA m c) (pt32 (gpt k 0 hs)) (hb1 m c _) hr j).trans ?_
      rw [pay6_zero, hp]
      rfl
  | s + 1, hs => by
    obtain ⟨ihS, ihL, ihC⟩ := totals_at c hr k s (by omega)
    have h0 : ¬(gpt k (s + 1) hs).val % 16 = 0 := by show ¬(16 * k.val + (s + 1)) % 16 = 0; omega
    have hp : pt32 (gpt k (s + 1) hs) = pt k ⟨(s + 1) % 16, Nat.mod_lt _ (by decide)⟩ :=
      Fin.ext (by show 16 * k.val + (s + 1) = 16 * k.val + (s + 1) % 16; omega)
    rw [step_B m c (gpt k (s + 1) hs) h0, prev_gpt m c k s hs]
    refine ⟨fun j d => ?_, ?_, fun j => ?_⟩
    · refine (pay2_sum (b0 m c (gpt k (s + 1) hs)) (b1 m c (gpt k (s + 1) hs)) (b2 m c (gpt k (s + 1) hs)) _
        (fA m c) (lA m c) (cA m c) (pt32 (gpt k (s + 1) hs)) (hb0 m c _) (hb1 m c _) hr (hb2 m c _) j d).trans ?_
      rw [ihS j d, hp]
      rfl
    · refine (pay10_loss (b0 m c (gpt k (s + 1) hs)) (b1 m c (gpt k (s + 1) hs)) (b2 m c (gpt k (s + 1) hs)) _
        (fA m c) (lA m c) (cA m c) (pt32 (gpt k (s + 1) hs)) (hb0 m c _) (hb1 m c _) hr (hb2 m c _)).trans ?_
      rw [ihL, hp]
      rfl
    · refine (pay3_cnt (b1 m c (gpt k (s + 1) hs)) _ (lA m c) (pt32 (gpt k (s + 1) hs)) (hb1 m c _) hr j).trans ?_
      rw [ihC j, hp]
      rfl

end Cert.KernelIdeal.KInv

end
-- ==== Proof.SumAlg.lean ====
/-
  The rows regrouped. 262144 = 2 · 16 · 8192: a sum over all rows is the sum over the two cores, the sixteen steps of
  each, and the 8192 rows of each step's block; a core's running total after its last step is the sum of its steps' parts.
  On the extended reals addition is commutative and associative, so none of this needs the summands to be finite.
-/
import proofs.«418898_j80367428042770_2_alg».proof.Proof.Spec

open scoped BigOperators

noncomputable section

namespace Cert.CenterLoss

open Idealize.ShloMosaic Idealize.ShloMosaic.ValueIdx

/-! ## The running total -/

/-- After step `n` (at most the last) the running total is the sum of the parts of steps 0 … n. -/
private theorem accum_range (part : Fin 32 → EReal) (c : Fin 2) :
    ∀ n : ℕ, n ≤ 15 →
      accum part c n = ∑ s ∈ Finset.range (n + 1), part (pt c ⟨s % 16, Nat.mod_lt _ (by decide)⟩)
  | 0, _ => by
    rw [accum, Finset.sum_range_one, zero_add]
    rfl
  | n + 1, h => by
    rw [accum, accum_range part c n (by omega), Finset.sum_range_succ _ (n + 1)]

/-- A core's running total after its sixteenth step is the sum of the sixteen parts. -/
theorem accum_eq_sum (part : Fin 32 → EReal) (c : Fin 2) : accum part c 15 = ∑ s : Fin 16, part (pt c s) := by
  rw [accum_range part c 15 (le_refl _),
    ← Fin.sum_univ_eq_sum_range (fun s => part (pt c ⟨s % 16, Nat.mod_lt _ (by decide)⟩)) 16]
  refine Finset.sum_congr rfl fun s _ => ?_
  have hs : (⟨s.val % 16, Nat.mod_lt _ (by decide)⟩ : Fin 16) = s := Fin.ext (Nat.mod_eq_of_lt s.isLt)
  rw [hs]

/-! ## Every row is row `p` of step `s` of core `c` for exactly one (c, s, p) -/

/-- The rows numbered by core, step and place in the step's block: r = 8192·(16·c + s) + p. -/
private def rowEquiv : (Fin 2 × Fin 16) × Fin 8192 ≃ Fin 262144 where
  toFun x := row (pt x.1.1 x.1.2) x.2
  invFun r :=
    ((⟨r.val / 131072, by omega⟩, ⟨(r.val / 8192) % 16, by omega⟩), ⟨r.val % 8192, by omega⟩)
  left_inv := by
    rintro ⟨⟨c, s⟩, p⟩
    refine Prod.ext (Prod.ext (Fin.ext ?_) (Fin.ext ?_)) (Fin.ext ?_)
    · show (8192 * (16 * c.val + s.val) + p.val) / 131072 = c.val
      omega
    · show ((8192 * (16 * c.val + s.val) + p.val) / 8192) % 16 = s.val
      omega
    · show (8192 * (16 * c.val + s.val) + p.val) % 8192 = p.val
      omega
  right_inv := by
    intro r
    refine Fin.ext ?_
    show 8192 * (16 * (r.val / 131072) + (r.val / 8192) % 16) + r.val % 8192 = r.val
    omega

/-- A sum over all rows, regrouped by core, step and place. -/
private theorem sum_rows {M : Type} [AddCommMonoid M] (g : Fin 262144 → M) :
    ∑ r : Fin 262144, g r = ∑ c : Fin 2, ∑ s : Fin 16, ∑ p : Fin 8192, g (row (pt c s) p) := by
  rw [← Equiv.sum_comp rowEquiv g, Fintype.sum_prod_type, Fintype.sum_prod_type]
  rfl

/-- The squared differences summed over every row are the points' parts summed over the grid. -/
theorem lossSum_split (f : FeatArr) (lbl : LblArr) (ctr : CtrArr) :
    lossSum f lbl ctr = ∑ c : Fin 2, ∑ s : Fin 16, lossPart f lbl ctr (pt c s) := by
  rw [lossSum, sum_rows]
  rfl

/-- One times anything is itself and zero times anything is zero, on all the extended reals. -/
private theorem hotE_mul (lbl : LblArr) (r : Fin 262144) (j : Fin 64) (x : EReal) :
    hotE lbl r j * x = if cls lbl r = j then x else 0 := by
  unfold hotE
  split_ifs
  · exact one_mul x
  · exact zero_mul x

/-- A class's summed difference is the points' parts summed over the grid. -/
theorem sumE_split (f : FeatArr) (lbl : LblArr) (ctr : CtrArr) (j : Fin 64) (d : Fin 128) :
    sumE f lbl ctr j d = ∑ c : Fin 2, ∑ s : Fin 16, sumPart f lbl ctr (pt c s) j d := by
  rw [sumE, members, Finset.sum_filter, sum_rows]
  refine Finset.sum_congr rfl fun c _ => Finset.sum_congr rfl fun s _ => ?_
  rw [sumPart]
  refine Finset.sum_congr rfl fun p _ => ?_
  rw [hotE_mul]

/-- The embedding of the reals carries a finite sum to the sum of the images. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A class's number of rows, as a real, is the points' counts summed over the grid. -/
theorem cntE_split (lbl : LblArr) (j : Fin 64) :
    ((cntE lbl j : ℝ) : EReal) = ∑ c : Fin 2, ∑ s : Fin 16, cntPart lbl (pt c s) j := by
  rw [cntE, Finset.card_eq_sum_ones, Nat.cast_sum, coe_sum, members, Finset.sum_filter, sum_rows]
  refine Finset.sum_congr rfl fun c _ => Finset.sum_congr rfl fun s _ => ?_
  rw [cntPart]
  refine Finset.sum_congr rfl fun p _ => ?_
  unfold hotE
  split_ifs <;> simp

end Cert.CenterLoss

end
-- ==== Proof.KFinal.lean ====
/-
  The four output arrays after the run. The distance window writes its block back at every point, and block t of the
  array is rows 8192·t … 8192·t + 8191, so the array ends holding the distance of every row to every centre. The three
  windows of running totals keep one block per core and write it back only after the core's last step, so slot k of each
  array ends holding core k's sixteen parts summed.
-/
import proofs.«418898_j80367428042770_2_alg».proof.Proof.KInv
import proofs.«418898_j80367428042770_2_alg».proof.Proof.SumAlg

set_option maxRecDepth 16384

open scoped BigOperators

noncomputable section

namespace Cert.KernelIdeal.KFinal

open Cert.KernelIdeal Cert.KernelIdeal.Gen Cert.CenterLoss Idealize.ShloMosaic Idealize.ShloMosaic.TcCoe Idealize.SL.Sem
open Idealize.ShloMosaic.ValueIdx
open Idealize.ShloMosaic.Pipeline (Dat)
open Cert.KernelIdeal.KBlocks Cert.KernelIdeal.KInv

variable (m : (ℓ : Loc nD τ sig) → Buf (Elt Ideal) ℓ)

/-! ## Which block each output window writes at point t -/

theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)
theorem idx6 : ∀ t : Fin cfg0.N, win0_6.index t 0 = t.val / 16 ∧ win0_6.index t 1 = 0 ∧ win0_6.index t 2 = 0 :=
  (by decide +kernel : ∀ t : Fin grid0.N, win0_6.index t 0 = t.val / 16 ∧ win0_6.index t 1 = 0 ∧ win0_6.index t 2 = 0)
theorem idx7 : ∀ t : Fin cfg0.N, win0_7.index t 0 = t.val / 16 ∧ win0_7.index t 1 = 0 ∧ win0_7.index t 2 = 0 :=
  (by decide +kernel : ∀ t : Fin grid0.N, win0_7.index t 0 = t.val / 16 ∧ win0_7.index t 1 = 0 ∧ win0_7.index t 2 = 0)

theorem h15 : 15 < 16 := by decide

/-- A point whose step is the last of its core is step 15 of core t div 16. -/
theorem last_step (t : Fin cfg0.N) (ht : t.val % 16 = 15) : ∃ k : Fin 2, t = gpt k 15 h15 := by
  have hN : t.val < 32 := lt_of_lt_of_eq t.isLt (show cfg0.N = 32 from N_0)
  exact ⟨⟨t.val / 16, by omega⟩, Fin.ext (by show t.val = 16 * (t.val / 16) + 15; omega)⟩

/-! ## The distances -/

/-- What point t writes back is block t of the distances. -/
theorem flushed4_eq (c : Dev nD) (t : Fin cfg0.N) :
    (dats m 0 c).flushed 4 t = ((cfg0.win 4).blk t).view.read (Elt Ideal) (distG (fA m c) (cA m c)) := by
  show (cfg0.win 4).cut (grid0.coords t) ((dats m 0 c).after 4 t) = _
  rw [after0_4]
  funext y
  obtain ⟨p, j, rfl⟩ : ∃ (p : Fin 8192) (j : Fin 64), y = ix2 p j :=
    ⟨⟨(y 0).val, (y 0).isLt⟩, ⟨(y 1).val, (y 1).isLt⟩, funext fun a => Fin.ext (by match a with | ⟨0, _⟩ => rfl | ⟨1, _⟩ => rfl)⟩
  show (outsAt0 m c t.val t.isLt).1 (ix2 p j) = distG (fA m c) (cA m c) (((cfg0.win 4).blk t).view.emb (ix2 p j))
  rw [dist_at m c t p j]
  have he : (((cfg0.win 4).blk t).view.emb (ix2 p j) : S262144x64.Idx) = ix2 (row (pt32 t) p) j :=
    funext fun a => Fin.ext (by
      match a with
      | ⟨0, _⟩ => show win0_4.index t 0 * 8192 + 1 * p.val = 8192 * t.val + p.val; rw [(idx4 t).1]; omega
      | ⟨1, _⟩ => show win0_4.index t 1 * 64 + 1 * j.val = j.val; rw [(idx4 t).2]; omega)
  rw [he]
  rfl

/-- An index of the distance array is in point t's block iff each coordinate is in the block's range. -/
theorem mem_blk4 (t : Fin cfg0.N) (i : S262144x64.Idx) :
    i ∈ ((cfg0.win 4).blk t).view.set ↔ ∀ a : Fin 2, win0_4.index t a * S8192x64.size a ≤ (i a).val
      ∧ (i a).val < win0_4.index t a * S8192x64.size a + S8192x64.size a := by
  show i ∈ ((View.whole main_v4_0).slice (win0_4.rect t)).set ↔ _
  rw [View.set_slice_whole, Rect.mem_set_unit]
  exact Iff.rfl

/-- The distance array ends holding the distance of every row to every centre: row r is in block r div 8192. -/
theorem final4 (c : Dev nD) : (dats m 0 c).arrAt 4 cfg0.N = distG (fA m c) (cA m c) :=
  (dats m 0 c).arrAt_eq_of_cover 4 (distG (fA m c) (cA m c)) (fun t _ => flushed4_eq m c t) fun i => by
    have hi0 : (i 0).val < 262144 := (i 0).isLt
    have hi1 : (i 1).val < 64 := (i 1).isLt
    refine ⟨⟨(i 0).val / 8192, by rw [show cfg0.N = 32 from N_0]; omega⟩, flush0_4 _, ?_⟩
    rw [mem_blk4]
    intro a
    match a with
    | ⟨0, _⟩ =>
      show win0_4.index _ 0 * 8192 ≤ (i 0).val ∧ (i 0).val < win0_4.index _ 0 * 8192 + 8192
      rw [(idx4 _).1]
      show (i 0).val / 8192 * 8192 ≤ (i 0).val ∧ (i 0).val < (i 0).val / 8192 * 8192 + 8192
      omega
    | ⟨1, _⟩ =>
      show win0_4.index _ 1 * 64 ≤ (i 1).val ∧ (i 1).val < win0_4.index _ 1 * 64 + 64
      rw [(idx4 _).2]
      omega

/-! ## The per-class sums -/

/-- Slot k: core k's sixteen parts of the per-class sums, summed. -/
def G5 (c : Dev nD) : S2x64x128.Idx → EReal :=
  fun i => ∑ s : Fin 16, sumPart (fA m c) (lA m c) (cA m c) (pt (i 0) s) (i 1) (i 2)

theorem flushed5_eq (c : Dev nD) (hr : InRange (lA m c)) (t : Fin cfg0.N) (hf : (cfg0.win 5).flush t = true) :
    (dats m 0 c).flushed 5 t = ((cfg0.win 5).blk t).view.read (Elt Ideal) (G5 m c) := by
  obtain ⟨k, rfl⟩ := last_step t ((flush0_5 t).mp hf)
  show (cfg0.win 5).cut (grid0.coords _) ((dats m 0 c).after 5 _) = _
  rw [after0_5]
  funext y
  obtain ⟨u, j, d, rfl⟩ : ∃ (u : Fin 1) (j : Fin 64) (d : Fin 128), y = ix3 u j d :=
    ⟨⟨(y 0).val, (y 0).isLt⟩, ⟨(y 1).val, (y 1).isLt⟩, ⟨(y 2).val, (y 2).isLt⟩,
      funext fun a => Fin.ext (by match a with | ⟨0, _⟩ => rfl | ⟨1, _⟩ => rfl | ⟨2, _⟩ => rfl)⟩
  obtain rfl : u = 0 := Subsingleton.elim _ _
  show (outsAt0 m c (gpt k 15 h15).val (gpt k 15 h15).isLt).2.1 (ix3 (0 : Fin 1) j d)
    = G5 m c (((cfg0.win 5).blk (gpt k 15 h15)).view.emb (ix3 (0 : Fin 1) j d))
  rw [(totals_at m c hr k 15 h15).1 j d, accum_eq_sum]
  have he : (((cfg0.win 5).blk (gpt k 15 h15)).view.emb (ix3 (0 : Fin 1) j d) : S2x64x128.Idx) = ix3 k j d :=
    funext fun a => Fin.ext (by
      match a with
      | ⟨0, _⟩ =>
        show win0_5.index (gpt k 15 h15) 0 * 1 + 1 * 0 = k.val
        rw [(idx5 _).1]; show (16 * k.val + 15) / 16 * 1 + 1 * 0 = k.val; omega
      | ⟨1, _⟩ => show win0_5.index (gpt k 15 h15) 1 * 64 + 1 * j.val = j.val; rw [(idx5 _).2.1]; omega
      | ⟨2, _⟩ => show win0_5.index (gpt k 15 h15) 2 * 128 + 1 * d.val = d.val; rw [(idx5 _).2.2]; omega)
  rw [he]
  rfl

theorem mem_blk5 (t : Fin cfg0.N) (i : S2x64x128.Idx) :
    i ∈ ((cfg0.win 5).blk t).view.set ↔ ∀ a : Fin 3, win0_5.index t a * S1x64x128.size a ≤ (i a).val
      ∧ (i a).val < win0_5.index t a * S1x64x128.size a + S1x64x128.size a := by
  show i ∈ ((View.whole main_v4_1).slice (win0_5.rect t)).set ↔ _
  rw [View.set_slice_whole, Rect.mem_set_unit]
  exact Iff.rfl

theorem final5 (c : Dev nD) (hr : InRange (lA m c)) : (dats m 0 c).arrAt 5 cfg0.N = G5 m c :=
  (dats m 0 c).arrAt_eq_of_cover 5 (G5 m c) (fun t hf => flushed5_eq m c hr t hf) fun i => by
    have hi0 : (i 0).val < 2 := (i 0).isLt
    have hi1 : (i 1).val < 64 := (i 1).isLt
    have hi2 : (i 2).val < 128 := (i 2).isLt
    refine ⟨gpt ⟨(i 0).val, hi0⟩ 15 h15, (flush0_5 _).mpr (by show (16 * (i 0).val + 15) % 16 = 15; omega), ?_⟩
    rw [mem_blk5]
    intro a
    match a with
    | ⟨0, _⟩ =>
      show win0_5.index _ 0 * 1 ≤ (i 0).val ∧ (i 0).val < win0_5.index _ 0 * 1 + 1
      rw [(idx5 _).1]; show (16 * (i 0).val + 15) / 16 * 1 ≤ (i 0).val ∧ (i 0).val < (16 * (i 0).val + 15) / 16 * 1 + 1; omega
    | ⟨1, _⟩ => show win0_5.index _ 1 * 64 ≤ (i 1).val ∧ (i 1).val < win0_5.index _ 1 * 64 + 64; rw [(idx5 _).2.1]; omega
    | ⟨2, _⟩ => show win0_5.index _ 2 * 128 ≤ (i 2).val ∧ (i 2).val < win0_5.index _ 2 * 128 + 128; rw [(idx5 _).2.2]; omega

/-! ## The loss cells -/

/-- Slot k: core k's sixteen parts of the squared differences, summed. -/
def G6 (c : Dev nD) : S2x1x1.Idx → EReal :=
  fun i => ∑ s : Fin 16, lossPart (fA m c) (lA m c) (cA m c) (pt (i 0) s)

theorem flushed6_eq (c : Dev nD) (hr : InRange (lA m c)) (t : Fin cfg0.N) (hf : (cfg0.win 6).flush t = true) :
    (dats m 0 c).flushed 6 t = ((cfg0.win 6).blk t).view.read (Elt Ideal) (G6 m c) := by
  obtain ⟨k, rfl⟩ := last_step t ((flush0_6 t).mp hf)
  show (cfg0.win 6).cut (grid0.coords _) ((dats m 0 c).after 6 _) = _
  rw [after0_6]
  funext y
  obtain rfl : y = ix3 (0 : Fin 1) (0 : Fin 1) (0 : Fin 1) :=
    funext fun a => Fin.ext (by
      match a with
      | ⟨0, _⟩ => have h : (y 0).val < 1 := (y 0).isLt; show (y 0).val = 0; omega
      | ⟨1, _⟩ => have h : (y 1).val < 1 := (y 1).isLt; show (y 1).val = 0; omega
      | ⟨2, _⟩ => have h : (y 2).val < 1 := (y 2).isLt; show (y 2).val = 0; omega)
  show (outsAt0 m c (gpt k 15 h15).val (gpt k 15 h15).isLt).2.2.1 (ix3 (0 : Fin 1) (0 : Fin 1) (0 : Fin 1))
    = G6 m c (((cfg0.win 6).blk (gpt k 15 h15)).view.emb (ix3 (0 : Fin 1) (0 : Fin 1) (0 : Fin 1)))
  rw [(totals_at m c hr k 15 h15).2.1, accum_eq_sum]
  have he : (((cfg0.win 6).blk (gpt k 15 h15)).view.emb (ix3 (0 : Fin 1) (0 : Fin 1) (0 : Fin 1)) : S2x1x1.Idx)
      = ix3 k (0 : Fin 1) (0 : Fin 1) :=
    funext fun a => Fin.ext (by
      match a with
      | ⟨0, _⟩ =>
        show win0_6.index (gpt k 15 h15) 0 * 1 + 1 * 0 = k.val
        rw [(idx6 _).1]; show (16 * k.val + 15) / 16 * 1 + 1 * 0 = k.val; omega
      | ⟨1, _⟩ => show win0_6.index (gpt k 15 h15) 1 * 1 + 1 * 0 = 0; rw [(idx6 _).2.1]
      | ⟨2, _⟩ => show win0_6.index (gpt k 15 h15) 2 * 1 + 1 * 0 = 0; rw [(idx6 _).2.2])
  rw [he]
  rfl

theorem mem_blk6 (t : Fin cfg0.N) (i : S2x1x1.Idx) :
    i ∈ ((cfg0.win 6).blk t).view.set ↔ ∀ a : Fin 3, win0_6.index t a * S1x1x1.size a ≤ (i a).val
      ∧ (i a).val < win0_6.index t a * S1x1x1.size a + S1x1x1.size a := by
  show i ∈ ((View.whole main_v4_2).slice (win0_6.rect t)).set ↔ _
  rw [View.set_slice_whole, Rect.mem_set_unit]
  exact Iff.rfl

theorem final6 (c : Dev nD) (hr : InRange (lA m c)) : (dats m 0 c).arrAt 6 cfg0.N = G6 m c :=
  (dats m 0 c).arrAt_eq_of_cover 6 (G6 m c) (fun t hf => flushed6_eq m c hr t hf) fun i => by
    have hi0 : (i 0).val < 2 := (i 0).isLt
    have hi1 : (i 1).val < 1 := (i 1).isLt
    have hi2 : (i 2).val < 1 := (i 2).isLt
    refine ⟨gpt ⟨(i 0).val, hi0⟩ 15 h15, (flush0_6 _).mpr (by show (16 * (i 0).val + 15) % 16 = 15; omega), ?_⟩
    rw [mem_blk6]
    intro a
    match a with
    | ⟨0, _⟩ =>
      show win0_6.index _ 0 * 1 ≤ (i 0).val ∧ (i 0).val < win0_6.index _ 0 * 1 + 1
      rw [(idx6 _).1]; show (16 * (i 0).val + 15) / 16 * 1 ≤ (i 0).val ∧ (i 0).val < (16 * (i 0).val + 15) / 16 * 1 + 1; omega
    | ⟨1, _⟩ => show win0_6.index _ 1 * 1 ≤ (i 1).val ∧ (i 1).val < win0_6.index _ 1 * 1 + 1; rw [(idx6 _).2.1]; omega
    | ⟨2, _⟩ => show win0_6.index _ 2 * 1 ≤ (i 2).val ∧ (i 2).val < win0_6.index _ 2 * 1 + 1; rw [(idx6 _).2.2]; omega

/-! ## The per-class counts -/

/-- Slot k: core k's sixteen parts of the per-class counts, summed. -/
def G7 (c : Dev nD) : S2x64x1.Idx → EReal :=
  fun i => ∑ s : Fin 16, cntPart (lA m c) (pt (i 0) s) (i 1)

theorem flushed7_eq (c : Dev nD) (hr : InRange (lA m c)) (t : Fin cfg0.N) (hf : (cfg0.win 7).flush t = true) :
    (dats m 0 c).flushed 7 t = ((cfg0.win 7).blk t).view.read (Elt Ideal) (G7 m c) := by
  obtain ⟨k, rfl⟩ := last_step t ((flush0_7 t).mp hf)
  show (cfg0.win 7).cut (grid0.coords _) ((dats m 0 c).after 7 _) = _
  rw [after0_7]
  funext y
  obtain ⟨u, j, v, rfl⟩ : ∃ (u : Fin 1) (j : Fin 64) (v : Fin 1), y = ix3 u j v :=
    ⟨⟨(y 0).val, (y 0).isLt⟩, ⟨(y 1).val, (y 1).isLt⟩, ⟨(y 2).val, (y 2).isLt⟩,
      funext fun a => Fin.ext (by match a with | ⟨0, _⟩ => rfl | ⟨1, _⟩ => rfl | ⟨2, _⟩ => rfl)⟩
  obtain rfl : u = 0 := Subsingleton.elim _ _
  obtain rfl : v = 0 := Subsingleton.elim _ _
  show (outsAt0 m c (gpt k 15 h15).val (gpt k 15 h15).isLt).2.2.2 (ix3 (0 : Fin 1) j (0 : Fin 1))
    = G7 m c (((cfg0.win 7).blk (gpt k 15 h15)).view.emb (ix3 (0 : Fin 1) j (0 : Fin 1)))
  rw [(totals_at m c hr k 15 h15).2.2 j, accum_eq_sum]
  have he : (((cfg0.win 7).blk (gpt k 15 h15)).view.emb (ix3 (0 : Fin 1) j (0 : Fin 1)) : S2x64x1.Idx)
      = ix3 k j (0 : Fin 1) :=
    funext fun a => Fin.ext (by
      match a with
      | ⟨0, _⟩ =>
        show win0_7.index (gpt k 15 h15) 0 * 1 + 1 * 0 = k.val
        rw [(idx7 _).1]; show (16 * k.val + 15) / 16 * 1 + 1 * 0 = k.val; omega
      | ⟨1, _⟩ => show win0_7.index (gpt k 15 h15) 1 * 64 + 1 * j.val = j.val; rw [(idx7 _).2.1]; omega
      | ⟨2, _⟩ => show win0_7.index (gpt k 15 h15) 2 * 1 + 1 * 0 = 0; rw [(idx7 _).2.2])
  rw [he]
  rfl

theorem mem_blk7 (t : Fin cfg0.N) (i : S2x64x1.Idx) :
    i ∈ ((cfg0.win 7).blk t).view.set ↔ ∀ a : Fin 3, win0_7.index t a * S1x64x1.size a ≤ (i a).val
      ∧ (i a).val < win0_7.index t a * S1x64x1.size a + S1x64x1.size a := by
  show i ∈ ((View.whole main_v4_3).slice (win0_7.rect t)).set ↔ _
  rw [View.set_slice_whole, Rect.mem_set_unit]
  exact Iff.rfl

theorem final7 (c : Dev nD) (hr : InRange (lA m c)) : (dats m 0 c).arrAt 7 cfg0.N = G7 m c :=
  (dats m 0 c).arrAt_eq_of_cover 7 (G7 m c) (fun t hf => flushed7_eq m c hr t hf) fun i => by
    have hi0 : (i 0).val < 2 := (i 0).isLt
    have hi1 : (i 1).val < 64 := (i 1).isLt
    have hi2 : (i 2).val < 1 := (i 2).isLt
    refine ⟨gpt ⟨(i 0).val, hi0⟩ 15 h15, (flush0_7 _).mpr (by show (16 * (i 0).val + 15) % 16 = 15; omega), ?_⟩
    rw [mem_blk7]
    intro a
    match a with
    | ⟨0, _⟩ =>
      show win0_7.index _ 0 * 1 ≤ (i 0).val ∧ (i 0).val < win0_7.index _ 0 * 1 + 1
      rw [(idx7 _).1]; show (16 * (i 0).val + 15) / 16 * 1 ≤ (i 0).val ∧ (i 0).val < (16 * (i 0).val + 15) / 16 * 1 + 1; omega
    | ⟨1, _⟩ => show win0_7.index _ 1 * 64 ≤ (i 1).val ∧ (i 1).val < win0_7.index _ 1 * 64 + 64; rw [(idx7 _).2.1]; omega
    | ⟨2, _⟩ => show win0_7.index _ 2 * 1 ≤ (i 2).val ∧ (i 2).val < win0_7.index _ 2 * 1 + 1; rw [(idx7 _).2.2]; omega

end Cert.KernelIdeal.KFinal

end
-- ==== Proof.LibTypedRef.lean ====
/-
  Typed references: contents carried to a typed reference's buffer and read back at the value's type are the
  contents. The two transports are casts along one equation of buffer types and its inverse, so they cancel for any
  typed reference, whatever the equation's proof. Simplifying with this lemma removes every such pair from the
  composed term of a called function's operations without opening a single cast.
-/
import Idealize.ShloMosaic.Lib.StableHlo

namespace Idealize.ShloMosaic.StableHlo.TRef

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents read off a typed reference's buffer and carried back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Idealize.ShloMosaic.StableHlo.TRef
-- ==== Proof.KCasts.lean ====
/-
  The kernel's program clips the summed counts from below at 1 in an outlined function whose values are held through
  typed references. At a literal buffer the buffer's type computes to the type of the tensor value it holds, so carrying
  contents to the buffer, or reading them back, changes nothing. One equation per buffer at which such a transport
  stands alone in the result terms of the lines after the kernel.
-/
import proofs.«418898_j80367428042770_2_alg».proof.Proof.Gen.KernelIdeal
import proofs.«418898_j80367428042770_2_alg».proof.Proof.LibTypedRef

noncomputable section

namespace Cert.KernelIdeal.KCasts

open Cert.KernelIdeal Idealize.ShloMosaic Idealize.ShloMosaic.StableHlo

variable {Val : EltTy → Type}

/-- The scalar 1 the counts are clipped at, read back from its buffer. -/
theorem ofBuf_main_cst_3 (v : (⟨S_, .f32⟩ : BufTy).Contents Val) :
    (TRef.of (T := ⟨S_, .f32⟩) main_cst_3).ofBuf v = v := rfl

/-- The summed counts, read back from their buffer. -/
theorem ofBuf_main_v6 (v : (⟨S64x1, .f32⟩ : BufTy).Contents Val) :
    (TRef.of (T := ⟨S64x1, .f32⟩) main_v6).ofBuf v = v := rfl

/-- The clipped counts, carried to their buffer. -/
theorem toBuf_main_v8 (v : (⟨S64x1, .f32⟩ : BufTy).Contents Val) :
    (TRef.of (T := ⟨S64x1, .f32⟩) main_v8).toBuf v = v := rfl

end Cert.KernelIdeal.KCasts

end
-- ==== Proof.KTail.lean ====
/-
  The lines after the kernel. The kernel leaves one slot per core in each of its three arrays of totals; the host adds
  the two slots, divides the per-class sums by the per-class counts (at least 1), and divides the summed squared
  differences by N·D. Each core's slot is the sum of its sixteen steps' parts, so the two slots added are the sum over
  all 262144 rows: the class's summed difference, the class's number of rows, and the sum of all squared differences.
-/
import proofs.«418898_j80367428042770_2_alg».proof.Proof.KFinal
import proofs.«418898_j80367428042770_2_alg».proof.Proof.KCasts
import Idealize.ShloMosaic.Lib.StableHlo.Run
import Idealize.ShloMosaic.PureOps.IdealRules

set_option maxRecDepth 16384

open scoped BigOperators

noncomputable section

namespace Cert.KernelIdeal.KTail

open Cert.KernelIdeal Cert.KernelIdeal.Gen Cert.CenterLoss Idealize.ShloMosaic Idealize.ShloMosaic.TcCoe Idealize.SL.Sem
open Idealize.ShloMosaic.ValueIdx Idealize.ShloMosaic.StableHlo
open Cert.KernelIdeal.KInv Cert.KernelIdeal.KFinal

/-! ## The host's arithmetic on the per-core arrays, over variables -/

/-- The sum over the two cores of a [2, 64, 128] array, from zero, at (j, d). -/
theorem sum_cores5 (g : FVec Ideal S2x64x128 .f32) (j : Fin 64) (d : Fin 128) :
    Host.reduceAdd g (constant S_ .f32 0x00000000#32) reducesTo_S2x64x128_S64x128_d0 h_S_ (ix2 j d)
      = ∑ k : Fin 2, g (ix3 k j d) := by
  simp only [Host.reduceAdd, Ideal.hostReduceAdd_def]
  rw [Ideal.hostReduceAdd_single reducesTo_S2x64x128_S64x128_d0 (by decide)]
  show Ideal.ofBits .f32 0x00000000#32 + _ = _
  rw [Ideal.ofBits_zero_f32, zero_add]
  refine Finset.sum_congr rfl fun k _ => ?_
  exact congrArg g (funext fun a => Fin.ext (by match a with | ⟨0, _⟩ => rfl | ⟨1, _⟩ => rfl | ⟨2, _⟩ => rfl))

/-- The sum over the two cores of a [2, 64, 1] array, from zero, at (j, 0). -/
theorem sum_cores7 (g : FVec Ideal S2x64x1 .f32) (j : Fin 64) :
    Host.reduceAdd g (constant S_ .f32 0x00000000#32) reducesTo_S2x64x1_S64x1_d0 h_S_ (ix2 j (0 : Fin 1))
      = ∑ k : Fin 2, g (ix3 k j (0 : Fin 1)) := by
  simp only [Host.reduceAdd, Ideal.hostReduceAdd_def]
  rw [Ideal.hostReduceAdd_single reducesTo_S2x64x1_S64x1_d0 (by decide)]
  show Ideal.ofBits .f32 0x00000000#32 + _ = _
  rw [Ideal.ofBits_zero_f32, zero_add]
  refine Finset.sum_congr rfl fun k _ => ?_
  exact congrArg g (funext fun a => Fin.ext (by match a with | ⟨0, _⟩ => rfl | ⟨1, _⟩ => rfl | ⟨2, _⟩ => rfl))

/-- The sum over the two cores of a [2, 1, 1] array, from zero, at (0, 0). -/
theorem sum_cores6 (g : FVec Ideal S2x1x1 .f32) :
    Host.reduceAdd g (constant S_ .f32 0x00000000#32) reducesTo_S2x1x1_S1x1_d0 h_S_ (ix2 (0 : Fin 1) (0 : Fin 1))
      = ∑ k : Fin 2, g (ix3 k (0 : Fin 1) (0 : Fin 1)) := by
  simp only [Host.reduceAdd, Ideal.hostReduceAdd_def]
  rw [Ideal.hostReduceAdd_single reducesTo_S2x1x1_S1x1_d0 (by decide)]
  show Ideal.ofBits .f32 0x00000000#32 + _ = _
  rw [Ideal.ofBits_zero_f32, zero_add]
  refine Finset.sum_congr rfl fun k _ => ?_
  exact congrArg g (funext fun a => Fin.ext (by match a with | ⟨0, _⟩ => rfl | ⟨1, _⟩ => rfl | ⟨2, _⟩ => rfl))

/-- The per-class quotient the host forms from the two arrays, at (j, d). -/
theorem quotient_apply (g5 : FVec Ideal S2x64x128 .f32) (g7 : FVec Ideal S2x64x1 .f32) (j : Fin 64) (d : Fin 128) :
    Host.divf (Host.reduceAdd g5 (constant S_ .f32 0x00000000#32) reducesTo_S2x64x128_S64x128_d0 h_S_)
        (broadcastInDim S64x128 ![0, 1] bcast_S64x1_S64x128_0_1
          (maximumf (broadcastInDim S64x1 ![] bcast_S_S64x1 (id (constant S_ .f32 0x3F800000#32)))
            (Host.reduceAdd g7 (constant S_ .f32 0x00000000#32) reducesTo_S2x64x1_S64x1_d0 h_S_))) (ix2 j d)
      = Ideal.div (∑ k : Fin 2, g5 (ix3 k j d)) (max 1 (∑ k : Fin 2, g7 (ix3 k j (0 : Fin 1)))) := by
  show Ideal.div _ _ = _
  rw [sum_cores5]
  congr 1
  rw [broadcastInDim_apply _ bcast_S64x1_S64x128_0_1 _ (ix2 j d) (ix2 j (0 : Fin 1)) (fun a => match a with
    | ⟨0, _⟩ => by show j.val = if (64 : Nat) = 1 then 0 else j.val; rw [if_neg (by decide)]
    | ⟨1, _⟩ => by show 0 = if (1 : Nat) = 1 then 0 else d.val; rw [if_pos rfl])]
  show max _ _ = _
  rw [sum_cores7]
  congr 1
  show Ideal.ofBits .f32 0x3F800000#32 = 1
  exact IdealRules.sign_bit.ideal_onePat .f32

/-- The mean the host forms from the loss cells: the two cells added, over N·D. -/
theorem mean_apply (g6 : FVec Ideal S2x1x1 .f32) :
    Host.divf (shapeCast S_ (Host.reduceAdd g6 (constant S_ .f32 0x00000000#32) reducesTo_S2x1x1_S1x1_d0 h_S_) shapeCasts_S1x1_S_)
        (constant S_ .f32 0x4C000000#32) ix0
      = Ideal.div (∑ k : Fin 2, g6 (ix3 k (0 : Fin 1) (0 : Fin 1))) nd := by
  show Ideal.div _ _ = _
  congr 1
  rw [shapeCast_apply _ shapeCasts_S1x1_S_ ix0 (ix2 (0 : Fin 1) (0 : Fin 1)) (by
    have a := (S1x1.rowMajor (ix2 (0 : Fin 1) (0 : Fin 1))).isLt
    have b := (S_.rowMajor ix0).isLt
    have ha : S1x1.numel = 1 := by decide
    have hb : S_.numel = 1 := by decide
    omega)]
  exact sum_cores6 g6

/-! ## The two results the lines after the kernel compute -/

section Tail

variable (m : (ℓ : Loc nD τ sig) → Buf (Elt Ideal) ℓ)

/-- The lines after the kernel read each array of totals as the kernel left it. -/
theorem arr5 (c : Dev nD) (hr : InRange (lA m c)) :
    Pipeline.withArrays (cfgs 0).spec c (V0 m c) (fun w => (dats m 0 c).arrAt w (cfgs 0).N) (Proc.devRef .tc main_v4_1) = G5 m c :=
  (Pipeline.withArrays_arr spec0 launch0.win.arr_inj c _ _ 5).trans (final5 m c hr)
theorem arr6 (c : Dev nD) (hr : InRange (lA m c)) :
    Pipeline.withArrays (cfgs 0).spec c (V0 m c) (fun w => (dats m 0 c).arrAt w (cfgs 0).N) (Proc.devRef .tc main_v4_2) = G6 m c :=
  (Pipeline.withArrays_arr spec0 launch0.win.arr_inj c _ _ 6).trans (final6 m c hr)
theorem arr7 (c : Dev nD) (hr : InRange (lA m c)) :
    Pipeline.withArrays (cfgs 0).spec c (V0 m c) (fun w => (dats m 0 c).arrAt w (cfgs 0).N) (Proc.devRef .tc main_v4_3) = G7 m c :=
  (Pipeline.withArrays_arr spec0 launch0.win.arr_inj c _ _ 7).trans (final7 m c hr)

/-- The per-class difference: each class's summed difference over the number of its rows, at least 1. -/
theorem tail_difference (c : Dev nD) (hr : InRange (lA m c)) :
    Pipeline.afterTail₀ cfgs (dats m) 0 (V0 m) [hostOps1, hostOps1_1, hostOps1_2] c main_v10
      = differenceG (fA m c) (lA m c) (cA m c) := by
  unfold Pipeline.afterTail₀
  simp only [hostOps1, hostOps1_1, hostOps1_2, List.flatten_cons, List.flatten_nil, List.append_nil, List.cons_append, List.nil_append]
  after_results
  simp only [TRef.ofBuf_toBuf, TRef.toBuf_ofBuf, KCasts.ofBuf_main_cst_3, KCasts.ofBuf_main_v6, KCasts.toBuf_main_v8]
  rw [arr5 m c hr, arr7 m c hr]
  funext i
  obtain ⟨j, d, rfl⟩ : ∃ (j : Fin 64) (d : Fin 128), i = ix2 j d := ⟨i 0, i 1, eq_ix2 i⟩
  rw [quotient_apply]
  show _ = differenceE (fA m c) (lA m c) (cA m c) j d
  unfold differenceE
  rw [sumE_split, cntE_split]
  rfl

/-- The mean squared difference: the sum over every row and feature, over N·D. -/
theorem tail_loss (c : Dev nD) (hr : InRange (lA m c)) :
    Pipeline.afterTail₀ cfgs (dats m) 0 (V0 m) [hostOps1, hostOps1_1, hostOps1_2] c main_v12
      = lossG (fA m c) (lA m c) (cA m c) := by
  have e : Pipeline.afterTail₀ cfgs (dats m) 0 (V0 m) [hostOps1, hostOps1_1, hostOps1_2] c main_v12
      = Host.divf (F := Ideal) (shapeCast S_ (Host.reduceAdd (F := Ideal)
          (Pipeline.withArrays (cfgs 0).spec c (V0 m c) (fun w => (dats m 0 c).arrAt w (cfgs 0).N) (Proc.devRef .tc main_v4_2))
          (constant S_ .f32 0x00000000#32) reducesTo_S2x1x1_S1x1_d0 h_S_) shapeCasts_S1x1_S_) (constant S_ .f32 0x4C000000#32) := by
    unfold Pipeline.afterTail₀
    simp only [hostOps1, hostOps1_1, hostOps1_2, List.flatten_cons, List.flatten_nil, List.append_nil, List.cons_append, List.nil_append]
    after_results
    rfl
  rw [e, arr6 m c hr]
  funext i
  obtain rfl : i = ix0 := eq_ix0 i
  rw [mean_apply]
  show _ = lossE (fA m c) (lA m c) (cA m c)
  unfold lossE
  rw [lossSum_split]
  rfl

end Tail

end Cert.KernelIdeal.KTail

end
-- ==== Proof.KRun.lean ====
/-
  The kernel's program, run: every weakly fair execution ends with the mean squared difference, the per-class
  difference and the distances at the specification's three functions of the argument arrays, and the arguments as they
  were. The distances are the kernel's first output array; the other two results are what the lines after the kernel
  compute from its three arrays of per-core totals.
-/
import proofs.«418898_j80367428042770_2_alg».proof.Proof.KTail

set_option maxRecDepth 16384

noncomputable section

namespace Cert.KernelIdeal.KRun

open Cert.KernelIdeal Cert.KernelIdeal.Gen Cert.CenterLoss Idealize.ShloMosaic Idealize.ShloMosaic.TcCoe Idealize.SL.Sem
open Cert.KernelIdeal.KInv Cert.KernelIdeal.KFinal Cert.KernelIdeal.KTail

theorem run (m : (ℓ : Loc nD τ sig) → Buf (Elt Ideal) ℓ) (ρ : Dev nD → PrngReg) (hr : ∀ c : Dev nD, InRange (lA m c)) :
    θ_run defs (onTc (τ := τ) (main (F := Ideal))) ⟨m, fun _ => 0, ρ⟩ fun r => ∀ c : Dev nD,
      r.2.mem ((c.tc : Thread nD τ).loc main_v12) = lossG (fA m c) (lA m c) (cA m c)
      ∧ r.2.mem ((c.tc : Thread nD τ).loc main_v10) = differenceG (fA m c) (lA m c) (cA m c)
      ∧ r.2.mem ((c.tc : Thread nD τ).loc main_v4_0) = distG (fA m c) (cA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tail_loss m c (hr c)),
     ((h c).2 main_v10 (Pipeline.mem_restRefs_of main_v10 (by decide) (by decide))).trans (tail_difference m c (hr c)),
     ((h c).1 4).trans (final4 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c)))⟩)
    (run_main m ρ)

end Cert.KernelIdeal.KRun

end
-- ==== Proof.RefCasts.lean ====
/-
  The reference clips twice (the labels from below at 0 before counting, the counts from below at 1 before dividing),
  and each clip is an outlined function whose values are held through typed references. At a literal buffer the
  buffer's type computes to the type of the tensor value it holds, so carrying contents to the buffer, or reading them
  back, changes nothing. One equation per buffer at which such a transport stands alone in the reference's result
  terms; where a transport meets its inverse the pair cancels for any typed reference.
-/
import proofs.«418898_j80367428042770_2_alg».proof.Proof.Gen.ReferenceIdeal
import proofs.«418898_j80367428042770_2_alg».proof.Proof.LibTypedRef

noncomputable section

namespace Cert.ReferenceIdeal.Casts

open Cert.ReferenceIdeal Idealize.ShloMosaic Idealize.ShloMosaic.StableHlo

variable {Val : EltTy → Type}

/-- The scalar 0 the labels are clipped at, read back from its buffer. -/
theorem ofBuf_main_c_7 (v : (⟨S_, .i32⟩ : BufTy).Contents Val) :
    (TRef.of (T := ⟨S_, .i32⟩) main_c_7).ofBuf v = v := rfl

/-- The labels, read back from the argument's buffer. -/
theorem ofBuf_main_arg1 (v : (⟨S262144, .i32⟩ : BufTy).Contents Val) :
    (TRef.of (T := ⟨S262144, .i32⟩) main_arg1).ofBuf v = v := rfl

/-- The clipped labels, carried to their buffer. -/
theorem toBuf_main_v30 (v : (⟨S262144, .i32⟩ : BufTy).Contents Val) :
    (TRef.of (T := ⟨S262144, .i32⟩) main_v30).toBuf v = v := rfl

/-- The scalar 1 the counts are clipped at, read back from its buffer. -/
theorem ofBuf_main_c_11 (v : (⟨S_, .i32⟩ : BufTy).Contents Val) :
    (TRef.of (T := ⟨S_, .i32⟩) main_c_11).ofBuf v = v := rfl

/-- The per-class counts, read back from their buffer. -/
theorem ofBuf_main_v38 (v : (⟨S64, .i32⟩ : BufTy).Contents Val) :
    (TRef.of (T := ⟨S64, .i32⟩) main_v38).ofBuf v = v := rfl

/-- The clipped counts, carried to their buffer. -/
theorem toBuf_main_v39 (v : (⟨S64, .i32⟩ : BufTy).Contents Val) :
    (TRef.of (T := ⟨S64, .i32⟩) main_v39).toBuf v = v := rfl

end Cert.ReferenceIdeal.Casts

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefGather.lean ====
/-
  The reference reads a row's centre by a gather of rows of the centre table at the labels (a negative label first
  moved up by 64). With the labels in range the row read is the row's own class, and nothing is clamped.
-/
import proofs.«418898_j80367428042770_2_alg».proof.Proof.RefReadP
import proofs.«418898_j80367428042770_2_alg».proof.Proof.LibGatherScatter
import proofs.«418898_j80367428042770_2_alg».proof.Proof.Spec

open scoped BigOperators

noncomputable section

namespace Cert.ReferenceIdeal.RefValue

open Cert.ReferenceIdeal Cert.ReferenceIdeal.Gen Cert.CenterLoss Idealize.ShloMosaic Idealize.ShloMosaic.ValueIdx

/-- A word that reads signed as a non-negative number is not below the word 0. -/
private theorem cmpi_slt_zero_of_nonneg (x : BitVec 32) (h : 0 ≤ x.toInt) : IntOp.cmpi .slt x 0#32 = 0#1 := by
  have hs : x.slt 0#32 = false := by
    rw [Bool.eq_false_iff]
    intro ht
    have hlt := BitVec.slt_iff_toInt_lt.1 ht
    have h0 : (0#32 : BitVec 32).toInt = 0 := by decide
    omega
  show BitVec.ofBool (x.slt 0#32) = 0#1
  rw [hs]
  rfl

/-- The start index of row `r`: the label itself once the label is not negative. -/
private theorem start_eq_label (x1 : (⟨S262144, .i32⟩ : BufTy).Contents (Elt Ideal)) (hr : InRange x1) (r : Fin 262144) :
    ReadP.val_main_v19 (F := Ideal) x1 (StableHlo.Predicate.ixP r) = x1 (ix1 r) := by
  have hidx : ReadP.idx_main_v19 (StableHlo.Predicate.ixP r) = ix1 r := by
    funext a; match a with | ⟨0, _⟩ => rfl
  rw [ReadP.val_main_v19_apply, hidx, ReadP.val_main_v18_apply, ReadP.val_main_v15_apply, ReadP.val_main_v14_apply,
    ReadP.val_main_c_apply, cmpi_slt_zero_of_nonneg _ (hr r).1, select_zero]

/-- The gathered table at row `r`, feature `d`, is the centre of `r`'s class there. -/
theorem gather_own_centre (x1 : (⟨S262144, .i32⟩ : BufTy).Contents (Elt Ideal)) (x2 : (⟨S64x128, .f32⟩ : BufTy).Contents (Elt Ideal))
    (hr : InRange x1) (r : Fin 262144) (d : Fin 128) :
    ReadP.val_main_v20 (F := Ideal) x1 x2 (ix2 r d) = x2 (ix2 (cls x1 r) d) := by
  unfold ReadP.val_main_v20
  rw [RowOps.gather_rows gather_S64x128_S262144x1_S262144x128_1_0_n_n_0_1_1128 rfl rfl rfl rfl rfl rfl x2
    (ReadP.val_main_v19 (F := Ideal) x1) r d (by decide)]
  have hl : RowOps.lands (ReadP.val_main_v19 (F := Ideal) x1) r (cls x1 r).val := by
    unfold RowOps.lands
    rw [start_eq_label x1 hr r]
    exact (cls_val x1 hr r).symm
  rw [RowOps.clampRow_of_lands (by decide) _ r (cls x1 r) hl]

end Cert.ReferenceIdeal.RefValue

end
-- ==== Proof.RefValue.lean ====
/-
  The reference's distances and its mean squared difference, read index by index over the extended reals, are the
  specification's. The distance needs nothing of the inputs; the mean reads a row's centre through the gather, which
  names the row's class once the labels are in range, and its (row − centre)² is the specification's (centre − row)²
  on real entries.
-/
import proofs.«418898_j80367428042770_2_alg».proof.Proof.RefGather

open scoped BigOperators

noncomputable section

namespace Cert.ReferenceIdeal.RefValue

open Cert.ReferenceIdeal Cert.ReferenceIdeal.Gen Cert.CenterLoss Idealize.ShloMosaic Idealize.ShloMosaic.ValueIdx

/-- The distances. -/
theorem ref_dist (x0 : (⟨S262144x128, .f32⟩ : BufTy).Contents (Elt Ideal)) (x2 : (⟨S64x128, .f32⟩ : BufTy).Contents (Elt Ideal)) :
    ReadP.val_main_v13 (F := Ideal) x0 x2 = distG x0 x2 := by
  funext i
  obtain ⟨r, j, rfl⟩ : ∃ (r : Fin 262144) (j : Fin 64), i = ix2 r j := ⟨i 0, i 1, eq_ix2 i⟩
  show _ = distE x0 x2 r j
  -- the composed index maps of the broadcasts, the transpose and the contraction, by coordinates
  have h1 : ∀ k : Fin 128, ReadP.idx_main_v1 (ReadP.idx_main_v2 (ReadP.idx_main_v6 (ix2 r j))) k = ix2 r k := fun k => by
    funext a; match a with | ⟨0, _⟩ => rfl | ⟨1, _⟩ => rfl
  have h4 : ∀ k : Fin 128, ReadP.idx_main_v4 (ReadP.idx_main_v5 (ReadP.idx_main_v7 (ix2 r j))) k = ix2 j k := fun k => by
    funext a; match a with | ⟨0, _⟩ => rfl | ⟨1, _⟩ => rfl
  have hl : ∀ k : Fin 128, ReadP.lidx_main_v10 (ix2 r j) k = ix2 r k := fun k => by
    funext a; match a with | ⟨0, _⟩ => rfl | ⟨1, _⟩ => rfl
  have hR : ∀ k : Fin 128, ReadP.idx_main_v9 (ReadP.ridx_main_v10 (ix2 r j) k) = ix2 j k := fun k => by
    funext a; match a with | ⟨0, _⟩ => rfl | ⟨1, _⟩ => rfl
  rw [ReadP.val_main_v13_apply, ReadP.val_main_v8_apply, ReadP.val_main_v12_apply, ReadP.val_main_v6_apply,
    ReadP.val_main_v2_apply, ReadP.val_main_v1_apply, ReadP.val_main_v7_apply, ReadP.val_main_v5_apply,
    ReadP.val_main_v4_apply, ReadP.val_main_v11_apply, ReadP.val_main_v10_apply, ReadP.val_main_cst_apply,
    ReadP.val_main_cst_0_apply, ReadP.val_main_cst_1_apply]
  simp only [ReadP.val_main_v0_apply, ReadP.val_main_v3_apply, ReadP.val_main_v9_apply, h1, h4, hl, hR,
    Ideal.ofBits_def, Ideal.addf_def, Ideal.subf_def, Ideal.mulf_def, Ideal.ofBits_zero_f32, zero_add]
  rfl

/-- The mean squared difference. -/
theorem ref_loss (x0 : (⟨S262144x128, .f32⟩ : BufTy).Contents (Elt Ideal)) (x1 : (⟨S262144, .i32⟩ : BufTy).Contents (Elt Ideal))
    (x2 : (⟨S64x128, .f32⟩ : BufTy).Contents (Elt Ideal)) (hr : InRange x1) (hf : Finite x0) (hc : Finite x2) :
    ReadP.val_main_v24 (F := Ideal) x0 x1 x2 = lossG x0 x1 x2 := by
  -- the total over every entry is the double sum over rows and features of the specification's squared differences
  have hsum : (∑ j : S262144x128.Idx, ReadP.val_main_v22 (F := Ideal) x0 x1 x2 j) = lossSum x0 x1 x2 := by
    rw [sum_idx2]
    unfold lossSum
    refine Finset.sum_congr rfl fun r _ => Finset.sum_congr rfl fun d _ => ?_
    rw [ReadP.val_main_v22_apply, ReadP.val_main_v21_apply, gather_own_centre x1 x2 hr r d]
    simp only [Ideal.mulf_def, Ideal.subf_def]
    unfold diffE
    -- on real entries (row − centre)² = (centre − row)²
    obtain ⟨a, ha⟩ := hf (ix2 r d)
    obtain ⟨b, hb⟩ := hc (ix2 (cls x1 r) d)
    rw [ha, hb, ← EReal.coe_sub, ← EReal.coe_sub, ← EReal.coe_mul, ← EReal.coe_mul]
    exact congrArg (fun t : ℝ => (t : EReal)) (by ring)
  funext i
  show _ = lossE x0 x1 x2
  rw [ReadP.val_main_v24_apply, ReadP.val_main_v23_apply, ReadP.val_main_cst_3_apply, ReadP.val_main_cst_4_apply, hsum]
  simp only [Ideal.hostDivf_def, Ideal.ofBits_def, Ideal.ofBits_zero_f32, zero_add]
  unfold lossE nd
  rfl

end Cert.ReferenceIdeal.RefValue

end
-- ==== Proof.RefDiff.lean ====
/-
  The reference's per-class difference. Its numerator is a scatter-add of the rows' differences at the labels: class j
  gains the difference of every row whose label is j. Its denominator counts the rows of each class with an integer
  scatter-add of ones at the labels (clipped from below at 0), takes at least 1, and converts to a real: with the labels
  in range and 262144 < 2³¹ nothing wraps, so it is the class's number of rows, an empty class counted as one.
-/
import proofs.«418898_j80367428042770_2_alg».proof.Proof.RefGather
import Mathlib.Data.BitVec
import Mathlib.Algebra.BigOperators.Fin
import Mathlib.Algebra.BigOperators.Ring.Finset

open scoped BigOperators

noncomputable section

namespace Cert.ReferenceIdeal.RefValue

open Cert.ReferenceIdeal Cert.ReferenceIdeal.Gen Cert.CenterLoss Idealize.ShloMosaic Idealize.ShloMosaic.ValueIdx
open Idealize.ShloMosaic.RowOps Idealize.ShloMosaic.StableHlo.Predicate

/-! ## An integer scatter-add as a sum -/

/-- A left fold of "add the update to the position it lands on" over any list of update positions leaves, at
    position `i`, the start value plus the sum of the updates of the list that land on `i`: addition of words is
    associative, so each step adds its update to the running total of exactly one position. -/
private theorem foldl_scatter_addi {s si u : Shape} {w : Nat} (d : ScatterDims s si u) (idx : IVec si w)
    (upd : u.Idx → BitVec 32) (l : List (Fin u.numel)) (x : s.Idx → BitVec 32) (i : s.Idx) :
    (l.foldl (fun r n =>
        match d.resultIdx? (u.rowMajor.symm n) idx with
        | some i => fun i' => if i' = i then IntOp.addi (r i) (upd (u.rowMajor.symm n)) else r i'
        | none => r) x) i
      = x i + (l.map fun n => if d.resultIdx? (u.rowMajor.symm n) idx = some i then upd (u.rowMajor.symm n) else 0).sum := by
  induction l generalizing x with
  | nil => simp
  | cons n l ih =>
    rw [List.foldl_cons, ih, List.map_cons, List.sum_cons]
    cases h : d.resultIdx? (u.rowMajor.symm n) idx with
    | none => simp
    | some k =>
      by_cases hik : i = k
      · subst hik
        simp [IntOp.addi, add_assoc]
      · have hne : (some k : Option s.Idx) ≠ some i := fun e => hik (Option.some.inj e).symm
        simp [hik, hne]

/-- An integer scatter with an `add` body: position `i` ends with its start value plus the sum, over every update
    index, of the updates that land on it. -/
private theorem scatter_addi_apply {s si u : Shape} {w : Nat} (d : ScatterDims s si u) (x : s.Idx → BitVec 32)
    (idx : IVec si w) (upd : u.Idx → BitVec 32) (i : s.Idx) :
    Host.scatter d IntOp.addi x idx upd i = x i + ∑ j : u.Idx, if d.resultIdx? j idx = some i then upd j else 0 := by
  unfold Host.scatter
  refine (foldl_scatter_addi d idx upd (List.finRange u.numel) x i).trans ?_
  rw [← Fin.sum_univ_def]
  congr 1
  exact Equiv.sum_comp u.rowMajor.symm (fun j => if d.resultIdx? j idx = some i then upd j else 0)

/-! ## The labels as start indices -/

/-- A label reads signed as `j` exactly when its row is of class `j`. -/
private theorem toInt_eq_iff_cls (x1 : (⟨S262144, .i32⟩ : BufTy).Contents (Elt Ideal)) (hr : InRange x1) (e : Fin 262144)
    (j : Fin 64) : (x1 (ix1 e)).toInt = (j.val : Int) ↔ cls x1 e = j := by
  rw [← cls_val x1 hr e]
  constructor
  · intro h
    exact Fin.ext (by exact_mod_cast h)
  · intro h
    rw [h]

private theorem idx27 (e : Fin 262144) : ReadP.idx_main_v27 (ixP e) = ix1 e :=
  funext fun a => by match a with | ⟨0, _⟩ => rfl

private theorem idx36 (e : Fin 262144) : ReadP.idx_main_v36 (ixP e) = ix1 e :=
  funext fun a => by match a with | ⟨0, _⟩ => rfl

/-- The numerator's column of start indices is the labels: row `e` lands on class `j` exactly when it is of class `j`. -/
private theorem lands_labels (x1 : (⟨S262144, .i32⟩ : BufTy).Contents (Elt Ideal)) (hr : InRange x1) (e : Fin 262144)
    (j : Fin 64) : lands (ReadP.val_main_v27 (F := Ideal) x1) e j.val ↔ cls x1 e = j := by
  unfold lands
  rw [ReadP.val_main_v27_apply, idx27]
  exact toInt_eq_iff_cls x1 hr e j

/-- The denominator's column of start indices: a label that is not negative is kept by the clip from below at 0 and is
    not moved up by 64, so the column is the labels again. -/
private theorem clip_label (x1 : (⟨S262144, .i32⟩ : BufTy).Contents (Elt Ideal)) (hr : InRange x1) (e : Fin 262144) :
    ReadP.val_main_v36 (F := Ideal) x1 (ixP e) = x1 (ix1 e) := by
  have h0 := (hr e).1
  have hs : (x1 (ix1 e)).slt (0#32) = false := by
    rw [BitVec.slt_eq_decide, decide_eq_false_iff_not, show (0#32 : BitVec 32).toInt = 0 from rfl]
    omega
  have hm : IntOp.maxsi (0#32) (x1 (ix1 e)) = x1 (ix1 e) := by
    unfold IntOp.maxsi
    rw [hs]
    rfl
  rw [ReadP.val_main_v36_apply, idx36, ReadP.val_main_v35_apply, ReadP.val_main_v32_apply, ReadP.val_main_v30_apply,
    ReadP.val_main_call0_v1_apply, ReadP.val_main_call0_v0_apply, ReadP.val_main_c_7_apply, ReadP.val_main_v31_apply,
    ReadP.val_main_c_8_apply, hm]
  show Scalar.select (BitVec.ofBool ((x1 (ix1 e)).slt (0#32))) _ _ = _
  rw [hs]
  rfl

private theorem lands_clip (x1 : (⟨S262144, .i32⟩ : BufTy).Contents (Elt Ideal)) (hr : InRange x1) (e : Fin 262144)
    (j : Fin 64) : lands (ReadP.val_main_v36 (F := Ideal) x1) e j.val ↔ cls x1 e = j := by
  unfold lands
  rw [clip_label x1 hr e]
  exact toInt_eq_iff_cls x1 hr e j

/-! ## The numerator -/

/-- Class `j` gains, at feature `d`, the difference (own centre minus row) of every row of class `j`. -/
private theorem numerator_apply (x0 : (⟨S262144x128, .f32⟩ : BufTy).Contents (Elt Ideal))
    (x1 : (⟨S262144, .i32⟩ : BufTy).Contents (Elt Ideal)) (x2 : (⟨S64x128, .f32⟩ : BufTy).Contents (Elt Ideal))
    (hr : InRange x1) (j : Fin 64) (d : Fin 128) :
    ReadP.val_main_v28 (F := Ideal) x0 x1 x2 (ix2 j d) = sumE x0 x1 x2 j d := by
  unfold ReadP.val_main_v28 Host.scatterAdd
  rw [Ideal.hostScatterAdd_def,
    scatterAdd_rows scatter_S64x128_S262144x1_S262144x128_1_0_0_1 rfl rfl rfl rfl,
    ReadP.val_main_v26_apply, ReadP.val_main_cst_5_apply, Ideal.ofBits_def, Ideal.ofBits_zero_f32, zero_add]
  unfold sumE members
  refine Finset.sum_congr ?_ ?_
  · ext e
    simp only [Finset.mem_filter, Finset.mem_univ, true_and]
    exact lands_labels x1 hr e j
  · intro e _
    rw [ReadP.val_main_v25_apply, gather_own_centre x1 x2 hr e d]
    rfl

/-! ## The denominator -/

/-- The integer scatter-add of ones at the labels counts the rows of each class. -/
private theorem count_apply (x1 : (⟨S262144, .i32⟩ : BufTy).Contents (Elt Ideal)) (hr : InRange x1) (j : Fin 64) :
    ReadP.val_main_v38 (F := Ideal) x1 (ix1 j) = BitVec.ofNat 32 (cntE x1 j) := by
  unfold ReadP.val_main_v38
  have h1 : ∀ jj : S262144.Idx, ReadP.val_main_v37 (F := Ideal) jj = 1 := fun jj => by
    rw [ReadP.val_main_v37_apply, ReadP.val_main_c_10_apply]
    rfl
  rw [scatter_addi_apply, ReadP.val_main_v29_apply, ReadP.val_main_c_6_apply]
  simp only [h1]
  rw [show (0#32 : BitVec 32) = 0 from rfl, zero_add, Finset.sum_boole, BitVec.natCast_eq_ofNat]
  refine congrArg (BitVec.ofNat 32) ?_
  unfold cntE members
  refine Finset.card_bij (fun jj _ => (jj 0 : Fin 262144)) ?_ ?_ ?_
  · intro jj hjj
    exact Finset.mem_filter.2 ⟨Finset.mem_univ _, (lands_clip x1 hr _ j).1
      ((resultIdx?_row1_iff scatter_S64_S262144x1_S262144_n_0_0_1 rfl rfl rfl rfl _ jj j).1 (Finset.mem_filter.1 hjj).2)⟩
  · intro a _ b _ hab
    exact (eq_ix1 a).trans ((congrArg ix1 hab).trans (eq_ix1 b).symm)
  · intro r hr'
    refine ⟨ix1 r, Finset.mem_filter.2 ⟨Finset.mem_univ _, ?_⟩, rfl⟩
    exact (resultIdx?_row1_iff scatter_S64_S262144x1_S262144_n_0_0_1 rfl rfl rfl rfl _ (ix1 r) j).2
      ((lands_clip x1 hr r j).2 (Finset.mem_filter.1 hr').2)

/-- A count of at most 262144 fits the signed word, and the larger of 1 and it is the larger of 1 and the count. -/
private theorem toInt_max_one (N : Nat) (hN : N ≤ 262144) :
    (IntOp.maxsi (1#32) (BitVec.ofNat 32 N)).toInt = ((max 1 N : Nat) : Int) := by
  have hN' : (BitVec.ofNat 32 N).toInt = (N : Int) := by
    rw [BitVec.toInt_eq_toNat_cond, BitVec.toNat_ofNat, Nat.mod_eq_of_lt (by omega)]
    split <;> omega
  have h1 : (1#32 : BitVec 32).toInt = 1 := by decide
  unfold IntOp.maxsi
  by_cases h : N < 1
  · have hs : (BitVec.ofNat 32 N).slt (1#32) = true := by
      rw [BitVec.slt_eq_decide, hN', h1]
      exact decide_eq_true (by omega)
    rw [hs, if_pos rfl, h1]
    omega
  · have hs : (BitVec.ofNat 32 N).slt (1#32) = false := by
      rw [BitVec.slt_eq_decide, hN', h1]
      exact decide_eq_false (by omega)
    rw [hs, if_neg (by simp), hN']
    omega

private theorem idx4142 (j : Fin 64) (d : Fin 128) : ReadP.idx_main_v41 (ReadP.idx_main_v42 (ix2 j d)) = ix1 j :=
  funext fun a => by match a with | ⟨0, _⟩ => rfl

/-- The denominator at class `j`: the number of its rows, an empty class counted as one. -/
private theorem denominator_apply (x1 : (⟨S262144, .i32⟩ : BufTy).Contents (Elt Ideal)) (hr : InRange x1) (j : Fin 64)
    (d : Fin 128) : ReadP.val_main_v42 (F := Ideal) x1 (ix2 j d) = max 1 ((cntE x1 j : ℝ) : EReal) := by
  have hle : cntE x1 j ≤ 262144 := by
    unfold cntE
    exact (Finset.card_le_univ _).trans (by simp)
  rw [ReadP.val_main_v42_apply, ReadP.val_main_v41_apply, ReadP.val_main_v40_apply, idx4142, ReadP.val_main_v39_apply,
    ReadP.val_main_call1_v1_apply, ReadP.val_main_call1_v0_apply, ReadP.val_main_c_11_apply, count_apply x1 hr j]
  show (((IntOp.maxsi (1#32) (BitVec.ofNat 32 (cntE x1 j))).toInt : ℝ) : EReal) = _
  rw [toInt_max_one _ hle, Int.cast_natCast, Nat.cast_max, Nat.cast_one,
    EReal.coe_strictMono.monotone.map_max, EReal.coe_one]

/-! ## The quotient -/

/-- The per-class difference. -/
theorem ref_difference (x0 : (⟨S262144x128, .f32⟩ : BufTy).Contents (Elt Ideal)) (x1 : (⟨S262144, .i32⟩ : BufTy).Contents (Elt Ideal))
    (x2 : (⟨S64x128, .f32⟩ : BufTy).Contents (Elt Ideal)) (hr : InRange x1) (hf : Finite x0) (hc : Finite x2) :
    ReadP.val_main_v43 (F := Ideal) x0 x1 x2 = differenceG x0 x1 x2 := by
  funext i
  obtain ⟨j, d, rfl⟩ : ∃ (j : Fin 64) (d : Fin 128), i = ix2 j d := ⟨i 0, i 1, eq_ix2 i⟩
  rw [ReadP.val_main_v43_apply, Ideal.hostDivf_def, numerator_apply x0 x1 x2 hr j d, denominator_apply x1 hr j d]
  rfl

end Cert.ReferenceIdeal.RefValue

end
-- ==== Proof.PreDecode.lean ====
/-
  What the precondition says. It is one conjunction of three tests, each reduced over a whole array: every feature
  entry is below +∞ in absolute value, every centre entry likewise, and every label is at least 0 and below 64,
  compared signed. All ones means every entry passes: the features and centres are real numbers and the labels name
  classes.
-/
import proofs.«418898_j80367428042770_2_alg».proof.Pre_finite_inputs
import proofs.«418898_j80367428042770_2_alg».proof.Proof.Gen.Pre_finite_inputs
import proofs.«418898_j80367428042770_2_alg».proof.Proof.Spec
import Idealize.ShloMosaic.Lib.ReduceAll
import Idealize.ShloMosaic.Lib.StableHlo.Predicate

open scoped BigOperators

noncomputable section

namespace Cert.PreDecode

open Cert.CenterLoss Idealize.ShloMosaic Idealize.ShloMosaic.ValueIdx

/-- The result of a reduction over every axis has one index. -/
private instance : Subsingleton Cert.Pre_finite_inputs.S_.Idx := ⟨fun a b => funext fun d => d.elim0⟩

/-- An extended real whose absolute value max(x, −x) is strictly below the word 0x7F800000 = +∞ is a real number:
    x = +∞ gives max = +∞, and x = −∞ gives −x = +∞, neither below +∞. -/
private theorem real_of_abs_lt_inf (x : EReal)
    (h : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at h
  have hlt : max x (-x) < ⊤ := by
    unfold Ideal.cmp at h
    simpa [StableHlo.Predicate.ofBool_eq_one_iff] using h
  rw [max_lt_iff] at hlt
  induction x using EReal.rec with
  | bot => simp at hlt
  | coe r => exact ⟨r, rfl⟩
  | top => simp at hlt

/-- A word that passes the signed tests "at least 0" and "below 64" reads, signed, in [0, 64). -/
private theorem label_in_range (a : BitVec 32) (h1 : IntOp.cmpi .sge a 0#32 = 1#1) (h2 : IntOp.cmpi .slt a 64#32 = 1#1) :
    0 ≤ a.toInt ∧ a.toInt < 64 := by
  simp only [IntOp.cmpi, StableHlo.Predicate.ofBool_eq_one_iff, BitVec.sle, BitVec.slt, decide_eq_true_eq] at h1 h2
  have e0 : (0#32 : BitVec 32).toInt = 0 := by decide
  have e64 : (64#32 : BitVec 32).toInt = 64 := by decide
  rw [e0] at h1
  rw [e64] at h2
  exact ⟨h1, h2⟩

theorem decode [Cert.Pre_finite_inputs.Facts] (x0 : FVec Ideal Cert.Pre_finite_inputs.S262144x128 .f32)
    (x1 : IVec Cert.Pre_finite_inputs.S262144 32) (x2 : FVec Ideal Cert.Pre_finite_inputs.S64x128 .f32)
    (h : Cert.Pre_finite_inputs.fn (F := Ideal) x0 x1 x2 = fun _ => 1#1) :
    Finite x0 ∧ InRange x1 ∧ Finite x2 := by
  -- the one result word is the conjunction of the three whole-array tests
  have h0 := congrFun h ValueIdx.ix0
  dsimp only [Cert.Pre_finite_inputs.fn] at h0
  obtain ⟨hAB, hC⟩ := IntOp.andi_eq_one.1 h0
  obtain ⟨hA, hB⟩ := IntOp.andi_eq_one.1 hAB
  -- a conjunction over a whole array that is 1 is 1 at every entry
  have eA := Host.reduce_andi_all _ _ _ _ _ hA
  have eB := Host.reduce_andi_all _ _ _ _ _ hB
  have eC := Host.reduce_andi_all _ _ _ _ _ hC
  refine ⟨fun i => real_of_abs_lt_inf (x0 i) (eA i), fun r => ?_, fun i => real_of_abs_lt_inf (x2 i) (eB i)⟩
  obtain ⟨c1, c2⟩ := IntOp.andi_eq_one.1 (eC (ix1 r))
  exact label_in_range (x1 (ix1 r)) c1 c2

end Cert.PreDecode

end
-- ==== Proof.lean ====
/-
  CENTER LOSS, a tiled kernel against its whole-array reference, over the extended reals.

  Inputs: 262144 feature rows of 128 numbers, one class label per row, 64 class centres of 128 numbers. Results: the
  mean over all entries of (a row's own centre − the row)², the per-class mean of (centre − row) with an empty class
  counted as one row, and the squared distance of every row to every centre as |f|² + |c|² − 2⟨f, c⟩.

  The kernel walks the rows in 2 × 16 blocks of 8192. It reads a row's own centre as the product of a 0/1 class-by-row
  matrix with the centre table, where the reference gathers the table's row at the label; it sums a class's differences
  and counts its rows as products and row sums of the same matrix, where the reference scatter-adds at the labels; and it
  keeps one running total per core, which the host adds at the end. With every label naming one of the 64 classes the
  0/1 matrix has exactly one 1 per row, at the row's class, so the product is the gathered row (0 · x = 0 and 1 · x = x
  for every extended real), the products and row sums are the scatter-adds, and regrouping the 262144 rows as
  2 · 16 · 8192 changes no finite sum. The reference squares (row − centre) where the kernel squares (centre − row):
  equal on real entries. Outside the label range the two programs differ (the reference's gather wraps and clamps, the
  0/1 matrix's row is all zero), which is why the precondition asks for labels in [0, 64) beside finite features and
  centres.

  The frames of the two kernel programs are the generated ones; the reference's frame is its run with the results
  dropped; the idealization rewrote nothing.
-/
import proofs.«418898_j80367428042770_2_alg».proof.Defs
import proofs.«418898_j80367428042770_2_alg».proof.Proof.Gen.Kernel
import proofs.«418898_j80367428042770_2_alg».proof.Proof.Gen.Kernel.Skeleton
import proofs.«418898_j80367428042770_2_alg».proof.Proof.Gen.Kernel.Launch
import proofs.«418898_j80367428042770_2_alg».proof.Proof.Gen.Kernel.Points
import proofs.«418898_j80367428042770_2_alg».proof.Proof.Gen.Kernel.Frame
import proofs.«418898_j80367428042770_2_alg».proof.Proof.Gen.KernelIdeal
import proofs.«418898_j80367428042770_2_alg».proof.Proof.Gen.KernelIdeal.Skeleton
import proofs.«418898_j80367428042770_2_alg».proof.Proof.Gen.KernelIdeal.Launch
import proofs.«418898_j80367428042770_2_alg».proof.Proof.Gen.KernelIdeal.Points
import proofs.«418898_j80367428042770_2_alg».proof.Proof.Gen.KernelIdeal.Frame
import proofs.«418898_j80367428042770_2_alg».proof.Proof.Gen.ReferenceIdeal
import proofs.«418898_j80367428042770_2_alg».proof.Proof.Gen.Pre_finite_inputs
import proofs.«418898_j80367428042770_2_alg».proof.Proof.KRun
import proofs.«418898_j80367428042770_2_alg».proof.Proof.RefValue
import proofs.«418898_j80367428042770_2_alg».proof.Proof.RefDiff
import proofs.«418898_j80367428042770_2_alg».proof.Proof.PreDecode
import Idealize.ShloMosaic.Adequacy
import Idealize.ShloMosaic.Init

noncomputable section

namespace Cert.Proof

open Idealize.ShloMosaic Idealize.SL.Sem Cert.CenterLoss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2)
    (Cert.ReferenceIdeal.ValueP.run (F := Ideal) m ρ)

theorem preserves : Cert.preserves_Kernel_KernelIdeal := trivial

/-- From memories that agree on the three arguments and satisfy the precondition, both programs end with the three
    results at the specification's functions of the arguments. -/
theorem algebraic : Cert.algebraic_KernelIdeal_ReferenceIdeal := by
  intro m ρ m' ρ' hpre hagree
  have hdec := fun c => Cert.PreDecode.decode _ _ _ (hpre c)
  refine ⟨_, _, _, Cert.KernelIdeal.KRun.run m ρ (fun c => (hdec c).2.1), ?_⟩
  refine (θ_run Cert.ReferenceIdeal.defs _ _).mono (fun _ h c => ?_) (Cert.ReferenceIdeal.ValueP.run (F := Ideal) m' ρ')
  obtain ⟨h24, h43, h13, ha0, ha1, ha2⟩ := h c
  obtain ⟨hf, hr, hc⟩ := hdec c
  refine ⟨h24.trans ?_, h43.trans ?_, h13.trans ?_, ha0, ha1, ha2⟩
  · rw [(hagree c).1, (hagree c).2.1, (hagree c).2.2, Cert.ReferenceIdeal.ReadP.val_main_v24_eq]
    exact Cert.ReferenceIdeal.RefValue.ref_loss _ _ _ hr hf hc
  · rw [(hagree c).1, (hagree c).2.1, (hagree c).2.2, Cert.ReferenceIdeal.ReadP.val_main_v43_eq]
    exact Cert.ReferenceIdeal.RefValue.ref_difference _ _ _ hr hf hc
  · rw [(hagree c).1, (hagree c).2.2, Cert.ReferenceIdeal.ReadP.val_main_v13_eq]
    exact Cert.ReferenceIdeal.RefValue.ref_dist _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
